-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩
abbrev S16x512 : Shape := ⟨2, ![16, 512]⟩
abbrev S512x16 : Shape := ⟨2, ![512, 16]⟩
abbrev S1024x16 : Shape := ⟨2, ![1024, 16]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S4x4096x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S16x512, .f32⟩
  | .local _ .vmem, ⟨7, _⟩ => ⟨S16x512, .f32⟩
  | .local _ .vmem, ⟨8, _⟩ => ⟨S512x16, .f32⟩
  | .local _ .vmem, ⟨9, _⟩ => ⟨S512x16, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 8], ![false, false, false]⟩

def k0_cond4 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x512_S16x512_0_0 : ∀ a, (![0, 0] : Fin 2 → Nat) a + S16x512.size a ≤ S16x512.size a
  h_S16x512 : 0 < S16x512.numel
  transposes_S16x512_p1_0_S512x16 : S16x512.Transposes [1, 0] S512x16
  inb_S512x16_S512x16_0_0 : ∀ a, (![0, 0] : Fin 2 → Nat) a + S512x16.size a ≤ S512x16.size a
  h_S512x16 : 0 < S512x16.numel
  transposes_S512x16_p1_0_S16x512 : S512x16.Transposes [1, 0] S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S16384x4096_S4x4096x4096 : S16384x4096.ShapeCasts S4x4096x4096
  dot_S1024x512_S512x512_S1024x512_1_0_0_1_n_n_wf : DotDims.WF S1024x512 S512x512 S1024x512 [1] [0] [0] [1] [] []
  dot_S1024x512_S512x16_S1024x16_1_0_0_1_n_n_wf : DotDims.WF S1024x512 S512x16 S1024x16 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S4096x16.size a
  hwx0_4 : ∀ i : grid0.Coords, EltTy.bits .f32 = 32 ∨ (Rect.block (s := S4096x16) S512x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x4096.size a
  hwx0_5 : ∀ i : grid0.Coords, EltTy.bits .f32 = 32 ∨ (Rect.block (s := S16384x4096) S1024x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.K.Conds.lean ====
/-
  The four branch conditions of the kernel body as propositions on the grid point (i, j, k) of the 16 × 8 × 8 grid, and
  which points satisfy them, with the point numbered t = 64 i + 8 j + k:
    the base accumulator is reset        where k = 0            (t ≡ 0 mod 8),
    the cached projection is reset       where j = 0 and k = 0  (t ≡ 0 mod 64),
    the cached projection is added to    where j = 0            (t mod 64 < 8),
    the output block is stored           where k = 7            (t ≡ 7 mod 8).
  The output window is idle exactly where k ≠ 7, and is written back exactly where k = 7.
  Also the names of the staging memrefs a point is called with, and the two scratch buffers as whole memrefs.
-/
import proofs.«163484_j40355512714072_1_alg».proof.Proof.Gen.Kernel.Frame
import proofs.«163484_j40355512714072_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- `k = 0`: the base accumulator is zeroed. -/
abbrev condK0 (i : grid0.Coords) : Prop :=
  (Scalar.cmpi .ne (Scalar.extui (Scalar.cmpi .eq (BitVec.ofNat 32 (i 2).val) 0#32)) 0#32) = 1#1
/-- `j = 0` and `k = 0`: the cached projection is zeroed. -/
abbrev condJK0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0`: the projection of this block of the contraction axis is added to the cache. -/
abbrev condJ0 (i : grid0.Coords) : Prop :=
  (Scalar.cmpi .ne (Scalar.extui (Scalar.cmpi .eq (BitVec.ofNat 32 (i 1).val) 0#32)) 0#32) = 1#1
/-- `k = 7`: the last block of the contraction axis; the output block is stored. -/
abbrev condK7 (i : grid0.Coords) : Prop := k0_cond4 i = 1#1

theorem hcondK0 : ∀ t : Fin cfg0.N, condK0 (grid0.coords t) ↔ t.val % 8 = 0 :=
  (by decide +kernel : ∀ t : Fin grid0.N, condK0 (grid0.coords t) ↔ t.val % 8 = 0)
theorem hcondJK0 : ∀ t : Fin cfg0.N, condJK0 (grid0.coords t) ↔ t.val % 64 = 0 :=
  (by decide +kernel : ∀ t : Fin grid0.N, condJK0 (grid0.coords t) ↔ t.val % 64 = 0)
theorem hcondJ0 : ∀ t : Fin cfg0.N, condJ0 (grid0.coords t) ↔ t.val % 64 < 8 :=
  (by decide +kernel : ∀ t : Fin grid0.N, condJ0 (grid0.coords t) ↔ t.val % 64 < 8)
theorem hcondK7 : ∀ t : Fin cfg0.N, condK7 (grid0.coords t) ↔ t.val % 8 = 7 :=
  (by decide +kernel : ∀ t : Fin grid0.N, condK7 (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last block of the contraction axis nothing is stored into the output window, -/
theorem idle5 : ∀ t : Fin cfg0.N, ¬condK7 (grid0.coords t) → cfg0.idle 5 (grid0.coords t) = true := by decide +kernel
/-- nor is it written back; -/
theorem noFlush5 : ∀ t : Fin cfg0.N, ¬condK7 (grid0.coords t) → (cfg0.win 5).flush t = false := by decide +kernel
/-- at the last block it is stored. -/
theorem live5 : ∀ t : Fin cfg0.N, condK7 (grid0.coords t) → cfg0.idle 5 (grid0.coords t) = false := by decide +kernel

/-! ## The memrefs a point is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
/-- The base accumulator (1024 × 512) and the cached projection (1024 × 16): whole scratch buffers. -/
abbrev accM : Memref sig .tc .vmem S1024x512 .f32 := Memref.whole cc0_scratch0
abbrev xrM : Memref sig .tc .vmem S1024x16 .f32 := Memref.whole cc0_scratch1
/-- One view through which each written buffer's contents are stated (the choice does not matter). -/
abbrev VO : View sig .tc .vmem S1024x512 .f32 := (Memref.whole cc0_stg5_0 : Memref sig .tc .vmem S1024x512 .f32).view
abbrev VAcc : View sig .tc .vmem S1024x512 .f32 := (accM).view
abbrev VXr : View sig .tc .vmem S1024x16 .f32 := (xrM).view

/-- What the region hands the body besides the windows: the two scratch buffers at some contents each, and the
    generator register at some state. -/
theorem PhiA_eq (c : Dev nD) :
    (Pipeline.ΦA spec0 c : sProp 𝕄)
      = iprop(iprop((∃ d, owns (c : Thread nD τ) accM fullShare d) ∗ (∃ d, owns (c : Thread nD τ) xrM fullShare d)) ∗ (∃ r, prngReg c r)) := by
  unfold Pipeline.ΦA; rw [scopedRest0_eq]; simp only [accM, xrM, owns_whole]; try rfl

end Cert.Kernel.Body

end
-- ==== Proof.K.RunA.lean ====
/-
  The body at a point with j = 0 and k = 0, the first point of a row block.  Both scratch buffers are zeroed before use,
  so whatever they held is irrelevant: the base accumulator ends at 0 + x·wᵀ of this block of the contraction axis, the
  cached projection at 0 + x·aᵀ of it.  The output window is not touched.  What each scratch buffer then holds is
  recorded as the list of stores the run makes into it (the zeroing store first, the accumulating store last).
-/
import proofs.«163484_j40355512714072_1_alg».proof.Proof.K.Conds
import Idealize.ShloMosaic.Lib.Exec

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runA (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : condK0 i) (hjk0 : condJK0 i) (hj0 : condJ0 i) (hk7 : ¬condK7 i)
    (x : Vec F S1024x512 .f32) (w : Vec F S512x512 .f32) (a : Vec F S16x512 .f32) :
    Σ' (LAcc : List (View.Piece (Elt F) S1024x512 .f32)), { LXr : List (View.Piece (Elt F) S1024x16 .f32) //
      ∀ (E : Set ℕ) (K : PUnit → sProp 𝕄),
        iprop(owns (c : Thread nD τ) arg3 fullShare x ∗ owns (c : Thread nD τ) arg4 fullShare w ∗ owns (c : Thread nD τ) arg6 fullShare a ∗ (∃ d, owns (c : Thread nD τ) arg9 fullShare d) ∗ (∃ d, owns (c : Thread nD τ) arg10 fullShare d)
            ∗ (iprop(owns (c : Thread nD τ) arg3 fullShare x ∗ owns (c : Thread nD τ) arg4 fullShare w ∗ owns (c : Thread nD τ) arg6 fullShare a ∗ (∃ f, arg9.view.loc (c : Thread nD τ) ↦[arg9.view.set]{fullShare} arg9.view.writes (Elt F) f LAcc) ∗ (∃ f, arg10.view.loc (c : Thread nD τ) ↦[arg10.view.set]{fullShare} arg10.view.writes (Elt F) f LXr)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H6⟩, ⟨%d3, %f3, -, H9⟩, ⟨%d4, %f4, -, H10⟩, Hk⟩
    obtain rfl := harg3.eq_unread hf0; obtain rfl := harg4.eq_unread hf1; obtain rfl := harg6.eq_unread hf2
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H9]
    · iexists _; iexact H9
    iexists _; iexact H10

end Cert.Kernel.Body

end
-- ==== Proof.K.RunB.lean ====
/-
  The body at a point with j = 0 and 0 < k < 7.  The product of the activations' block with the weight's block is added
  to the base accumulator, and the product with the low-rank factor's block to the cached projection, each over what the
  point before left there.  The output window is not touched.
-/
import proofs.«163484_j40355512714072_1_alg».proof.Proof.K.Conds
import Idealize.ShloMosaic.Lib.Exec

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runB (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : condJ0 i) (hk7 : ¬condK7 i)
    (x : Vec F S1024x512 .f32) (w : Vec F S512x512 .f32) (a : Vec F S16x512 .f32) (acc : Vec F S1024x512 .f32) (xr : Vec F S1024x16 .f32) :
    Σ' (LAcc : List (View.Piece (Elt F) S1024x512 .f32)), { LXr : List (View.Piece (Elt F) S1024x16 .f32) //
      ∀ (E : Set ℕ) (K : PUnit → sProp 𝕄),
        iprop(owns (c : Thread nD τ) arg3 fullShare x ∗ owns (c : Thread nD τ) arg4 fullShare w ∗ owns (c : Thread nD τ) arg6 fullShare a ∗ owns (c : Thread nD τ) arg9 fullShare acc ∗ owns (c : Thread nD τ) arg10 fullShare xr
            ∗ (iprop(owns (c : Thread nD τ) arg3 fullShare x ∗ owns (c : Thread nD τ) arg4 fullShare w ∗ owns (c : Thread nD τ) arg6 fullShare a ∗ (∃ f, arg9.view.loc (c : Thread nD τ) ↦[arg9.view.set]{fullShare} arg9.view.writes (Elt F) f LAcc) ∗ (∃ f, arg10.view.loc (c : Thread nD τ) ↦[arg10.view.set]{fullShare} arg10.view.writes (Elt F) f LXr)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H6⟩, ⟨%f3, %hf3, H9⟩, ⟨%f4, %hf4, H10⟩, Hk⟩
    obtain rfl := harg3.eq_unread hf0; obtain rfl := harg4.eq_unread hf1; obtain rfl := harg6.eq_unread hf2; obtain rfl := harg9.eq_unread hf3; obtain rfl := harg10.eq_unread hf4
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H9]
    · iexists _; iexact H9
    iexists _; iexact H10

end Cert.Kernel.Body

end
-- ==== Proof.K.RunC.lean ====
/-
  The body at a point with j = 0 and k = 7, the last block of the contraction axis in the first column block.  Both
  accumulations take their last summand; then the output block is stored: the finished base accumulator plus the bias row
  plus twice the finished projection times the second low-rank factor's block.  Whatever the output buffer held is
  overwritten.
-/
import proofs.«163484_j40355512714072_1_alg».proof.Proof.K.Conds
import Idealize.ShloMosaic.Lib.Exec

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runC (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : condJ0 i) (hk7 : condK7 i)
    (x : Vec F S1024x512 .f32) (w : Vec F S512x512 .f32) (bias : Vec F S1x512 .f32) (a : Vec F S16x512 .f32) (b : Vec F S512x16 .f32) (acc : Vec F S1024x512 .f32) (xr : Vec F S1024x16 .f32) :
    Σ' (LOut : List (View.Piece (Elt F) S1024x512 .f32)), Σ' (LAcc : List (View.Piece (Elt F) S1024x512 .f32)), { LXr : List (View.Piece (Elt F) S1024x16 .f32) //
      ∀ (E : Set ℕ) (K : PUnit → sProp 𝕄),
        iprop(owns (c : Thread nD τ) arg3 fullShare x ∗ owns (c : Thread nD τ) arg4 fullShare w ∗ owns (c : Thread nD τ) arg5 fullShare bias ∗ owns (c : Thread nD τ) arg6 fullShare a ∗ owns (c : Thread nD τ) arg7 fullShare b ∗ (∃ d, owns (c : Thread nD τ) arg8 fullShare d) ∗ owns (c : Thread nD τ) arg9 fullShare acc ∗ owns (c : Thread nD τ) arg10 fullShare xr
            ∗ (iprop(owns (c : Thread nD τ) arg3 fullShare x ∗ owns (c : Thread nD τ) arg4 fullShare w ∗ owns (c : Thread nD τ) arg5 fullShare bias ∗ owns (c : Thread nD τ) arg6 fullShare a ∗ owns (c : Thread nD τ) arg7 fullShare b ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LAcc) ∗ (∃ f, arg10.view.loc (c : Thread nD τ) ↦[arg10.view.set]{fullShare} arg10.view.writes (Elt F) f LXr)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H5⟩, ⟨%f3, %hf3, H6⟩, ⟨%f4, %hf4, H7⟩, ⟨%d5, %f5, -, H8⟩, ⟨%f6, %hf6, H9⟩, ⟨%f7, %hf7, H10⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.Kernel.Body

end
-- ==== Proof.K.RunD.lean ====
/-
  The body at a point with j > 0 and k = 0: the base accumulator is zeroed and takes its first summand; the cached
  projection, finished while j was 0, is left as it is, and the output window is not touched.
-/
import proofs.«163484_j40355512714072_1_alg».proof.Proof.K.Conds
import Idealize.ShloMosaic.Lib.Exec

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runD (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : condK0 i) (hjk0 : ¬condJK0 i) (hj0 : ¬condJ0 i) (hk7 : ¬condK7 i)
    (x : Vec F S1024x512 .f32) (w : Vec F S512x512 .f32) :
    { LAcc : List (View.Piece (Elt F) S1024x512 .f32) //
      ∀ (E : Set ℕ) (K : PUnit → sProp 𝕄),
        iprop(owns (c : Thread nD τ) arg3 fullShare x ∗ owns (c : Thread nD τ) arg4 fullShare w ∗ (∃ d, owns (c : Thread nD τ) arg9 fullShare d)
            ∗ (iprop(owns (c : Thread nD τ) arg3 fullShare x ∗ owns (c : Thread nD τ) arg4 fullShare w ∗ (∃ f, arg9.view.loc (c : Thread nD τ) ↦[arg9.view.set]{fullShare} arg9.view.writes (Elt F) f LAcc)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%d2, %f2, -, H9⟩, Hk⟩
    obtain rfl := harg3.eq_unread hf0; obtain rfl := harg4.eq_unread hf1
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    iexists _; iexact H9

end Cert.Kernel.Body

end
-- ==== Proof.K.RunE.lean ====
/-
  The body at a point with j > 0 and 0 < k < 7: none of the four branches is taken.  It reads the activations' block and
  the weight's block, and adds their product to the base accumulator; the cached projection and the output are not
  touched.  What the accumulator then holds is recorded as the list of stores the run makes into it.
-/
import proofs.«163484_j40355512714072_1_alg».proof.Proof.K.Conds
import Idealize.ShloMosaic.Lib.Exec

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runE (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : ¬condJ0 i) (hk7 : ¬condK7 i)
    (x : Vec F S1024x512 .f32) (w : Vec F S512x512 .f32) (acc : Vec F S1024x512 .f32) :
    { LAcc : List (View.Piece (Elt F) S1024x512 .f32) //
      ∀ (E : Set ℕ) (K : PUnit → sProp 𝕄),
        iprop(owns (c : Thread nD τ) arg3 fullShare x ∗ owns (c : Thread nD τ) arg4 fullShare w ∗ owns (c : Thread nD τ) arg9 fullShare acc
            ∗ (iprop(owns (c : Thread nD τ) arg3 fullShare x ∗ owns (c : Thread nD τ) arg4 fullShare w ∗ (∃ f, arg9.view.loc (c : Thread nD τ) ↦[arg9.view.set]{fullShare} arg9.view.writes (Elt F) f LAcc)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, fun E K => ?run⟩
  case run =>
    simp only [cc0__lora_linear_kernel_eq_skeleton]; unfold cc0__lora_linear_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hk0 | exact hjk0 | exact hj0 | exact hk7)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Body

end
-- ==== Proof.K.RunF.lean ====
/-
  The body at a point with j > 0 and k = 7.  The base accumulator takes its last summand; the cached projection is only
  read; the output block is stored: the finished accumulator plus the bias row plus twice the cached projection times the
  second low-rank factor's block.
-/
import proofs.«163484_j40355512714072_1_alg».proof.Proof.K.Conds
import Idealize.ShloMosaic.Lib.Exec

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runF (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : ¬condJ0 i) (hk7 : condK7 i)
    (x : Vec F S1024x512 .f32) (w : Vec F S512x512 .f32) (bias : Vec F S1x512 .f32) (b : Vec F S512x16 .f32) (acc : Vec F S1024x512 .f32) (xr : Vec F S1024x16 .f32) :
    Σ' (LOut : List (View.Piece (Elt F) S1024x512 .f32)), { LAcc : List (View.Piece (Elt F) S1024x512 .f32) //
      ∀ (E : Set ℕ) (K : PUnit → sProp 𝕄),
        iprop(owns (c : Thread nD τ) arg3 fullShare x ∗ owns (c : Thread nD τ) arg4 fullShare w ∗ owns (c : Thread nD τ) arg5 fullShare bias ∗ owns (c : Thread nD τ) arg7 fullShare b ∗ (∃ d, owns (c : Thread nD τ) arg8 fullShare d) ∗ owns (c : Thread nD τ) arg9 fullShare acc ∗ owns (c : Thread nD τ) arg10 fullShare xr
            ∗ (iprop(owns (c : Thread nD τ) arg3 fullShare x ∗ owns (c : Thread nD τ) arg4 fullShare w ∗ owns (c : Thread nD τ) arg5 fullShare bias ∗ owns (c : Thread nD τ) arg7 fullShare b ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LAcc) ∗ owns (c : Thread nD τ) arg10 fullShare xr) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H5⟩, ⟨%f3, %hf3, H7⟩, ⟨%d4, %f4, -, H8⟩, ⟨%f5, %hf5, H9⟩, ⟨%f6, %hf6, H10⟩, Hk⟩
    obtain rfl := harg3.eq_unread hf0; obtain rfl := harg4.eq_unread hf1; obtain rfl := harg5.eq_unread hf2; obtain rfl := harg7.eq_unread hf3; obtain rfl := harg9.eq_unread hf5; obtain rfl := harg10.eq_unread hf6
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; iexact H8
    isplitl [H9]
    · iexists _; iexact H9
    iexists _; isplitr; · ipureintro; exact harg10.read_unread _
    iexact H10

end Cert.Kernel.Body

end
-- ==== Proof.K.Data.lean ====
/-
  What the three buffers the body writes hold after each grid point, by recursion on the point t = 64 i + 8 j + k:
  the output window's staging buffer, the base accumulator (1024 × 512) and the cached projection (1024 × 16).
  At every point the base accumulator takes one more block of the contraction axis (from zero where k = 0); the cached
  projection takes one more block only while j = 0 (from zero at j = 0, k = 0) and is carried unchanged while j > 0; the
  output block is stored where k = 7 and is a placeholder elsewhere (there the window is idle and is not written back, so
  nothing reads it).  The invariant between two points names what the two scratch buffers hold; the proof data hand every
  input window back as its block.
-/
import proofs.«163484_j40355512714072_1_alg».proof.Proof.K.RunA
import proofs.«163484_j40355512714072_1_alg».proof.Proof.K.RunB
import proofs.«163484_j40355512714072_1_alg».proof.Proof.K.RunC
import proofs.«163484_j40355512714072_1_alg».proof.Proof.K.RunD
import proofs.«163484_j40355512714072_1_alg».proof.Proof.K.RunE
import proofs.«163484_j40355512714072_1_alg».proof.Proof.K.RunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

/-- The run of case A at point `t`, on the memrefs the point is called with. -/
abbrev RA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) :=
  runA (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w a

/-- Case A's stores into the base accumulator cover it (each is a store of the whole buffer). -/
theorem cover_accA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) (y : S1024x512.Idx) :
    ∃ pc ∈ (RA c t hk0 hjk0 hj0 hk7 x w a).1, y ∈ pc.1.set :=
  View.cover_of_tiledL (RA c t hk0 hjk0 hj0 hk7 x w a).1 S1024x512.size (by sl_kernel_rfl) y
/-- What they leave there, read back. -/
def accA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) : Vec F S1024x512 .f32 :=
  VAcc.read (Elt F) (VAcc.writes (Elt F) VAcc.junk (RA c t hk0 hjk0 hj0 hk7 x w a).1)

/-- Case A's stores into the cached projection cover it (each is a store of the whole buffer). -/
theorem cover_xrA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) (y : S1024x16.Idx) :
    ∃ pc ∈ (RA c t hk0 hjk0 hj0 hk7 x w a).2.1, y ∈ pc.1.set :=
  View.cover_of_tiledL (RA c t hk0 hjk0 hj0 hk7 x w a).2.1 S1024x16.size (by sl_kernel_rfl) y
/-- What they leave there, read back. -/
def xrA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) : Vec F S1024x16 .f32 :=
  VXr.read (Elt F) (VXr.writes (Elt F) VXr.junk (RA c t hk0 hjk0 hj0 hk7 x w a).2.1)

/-- The run of case B at point `t`, on the memrefs the point is called with. -/
abbrev RB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) :=
  runB (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w a acc xr

/-- Case B's stores into the base accumulator cover it (each is a store of the whole buffer). -/
theorem cover_accB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) (y : S1024x512.Idx) :
    ∃ pc ∈ (RB c t hk0 hjk0 hj0 hk7 x w a acc xr).1, y ∈ pc.1.set :=
  View.cover_of_tiledL (RB c t hk0 hjk0 hj0 hk7 x w a acc xr).1 S1024x512.size (by sl_kernel_rfl) y
/-- What they leave there, read back. -/
def accB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) : Vec F S1024x512 .f32 :=
  VAcc.read (Elt F) (VAcc.writes (Elt F) VAcc.junk (RB c t hk0 hjk0 hj0 hk7 x w a acc xr).1)

/-- Case B's stores into the cached projection cover it (each is a store of the whole buffer). -/
theorem cover_xrB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) (y : S1024x16.Idx) :
    ∃ pc ∈ (RB c t hk0 hjk0 hj0 hk7 x w a acc xr).2.1, y ∈ pc.1.set :=
  View.cover_of_tiledL (RB c t hk0 hjk0 hj0 hk7 x w a acc xr).2.1 S1024x16.size (by sl_kernel_rfl) y
/-- What they leave there, read back. -/
def xrB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) : Vec F S1024x16 .f32 :=
  VXr.read (Elt F) (VXr.writes (Elt F) VXr.junk (RB c t hk0 hjk0 hj0 hk7 x w a acc xr).2.1)

/-- The run of case C at point `t`, on the memrefs the point is called with. -/
abbrev RC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) :=
  runC (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w bias a b acc xr

/-- Case C's stores into the output block cover it (each is a store of the whole buffer). -/
theorem cover_outC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) (y : S1024x512.Idx) :
    ∃ pc ∈ (RC c t hk0 hjk0 hj0 hk7 x w bias a b acc xr).1, y ∈ pc.1.set :=
  View.cover_of_tiledL (RC c t hk0 hjk0 hj0 hk7 x w bias a b acc xr).1 S1024x512.size (by sl_kernel_rfl) y
/-- What they leave there, read back. -/
def outC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) : Vec F S1024x512 .f32 :=
  VO.read (Elt F) (VO.writes (Elt F) VO.junk (RC c t hk0 hjk0 hj0 hk7 x w bias a b acc xr).1)

/-- Case C's stores into the base accumulator cover it (each is a store of the whole buffer). -/
theorem cover_accC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) (y : S1024x512.Idx) :
    ∃ pc ∈ (RC c t hk0 hjk0 hj0 hk7 x w bias a b acc xr).2.1, y ∈ pc.1.set :=
  View.cover_of_tiledL (RC c t hk0 hjk0 hj0 hk7 x w bias a b acc xr).2.1 S1024x512.size (by sl_kernel_rfl) y
/-- What they leave there, read back. -/
def accC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) : Vec F S1024x512 .f32 :=
  VAcc.read (Elt F) (VAcc.writes (Elt F) VAcc.junk (RC c t hk0 hjk0 hj0 hk7 x w bias a b acc xr).2.1)

/-- Case C's stores into the cached projection cover it (each is a store of the whole buffer). -/
theorem cover_xrC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) (y : S1024x16.Idx) :
    ∃ pc ∈ (RC c t hk0 hjk0 hj0 hk7 x w bias a b acc xr).2.2.1, y ∈ pc.1.set :=
  View.cover_of_tiledL (RC c t hk0 hjk0 hj0 hk7 x w bias a b acc xr).2.2.1 S1024x16.size (by sl_kernel_rfl) y
/-- What they leave there, read back. -/
def xrC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) : Vec F S1024x16 .f32 :=
  VXr.read (Elt F) (VXr.writes (Elt F) VXr.junk (RC c t hk0 hjk0 hj0 hk7 x w bias a b acc xr).2.2.1)

/-- The run of case D at point `t`, on the memrefs the point is called with. -/
abbrev RD (c : Dev nD) (t : Fin cfg0.N) (hk0 : condK0 (grid0.coords t)) (hjk0 : ¬condJK0 (grid0.coords t)) (hj0 : ¬condJ0 (grid0.coords t)) (hk7 : ¬condK7 (grid0.coords t)) (x : Vec F S1024x512 .f32) (w : Vec F S512x512 .f32) :=
  runD (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w

/-- Case D's stores into the base accumulator cover it (each is a store of the whole buffer). -/
theorem cover_accD (c : Dev nD) (t : Fin cfg0.N) (hk0 : condK0 (grid0.coords t)) (hjk0 : ¬condJK0 (grid0.coords t)) (hj0 : ¬condJ0 (grid0.coords t)) (hk7 : ¬condK7 (grid0.coords t)) (x : Vec F S1024x512 .f32) (w : Vec F S512x512 .f32) (y : S1024x512.Idx) :
    ∃ pc ∈ (RD c t hk0 hjk0 hj0 hk7 x w).1, y ∈ pc.1.set :=
  View.cover_of_tiledL (RD c t hk0 hjk0 hj0 hk7 x w).1 S1024x512.size (by sl_kernel_rfl) y
/-- What they leave there, read back. -/
def accD (c : Dev nD) (t : Fin cfg0.N) (hk0 : condK0 (grid0.coords t)) (hjk0 : ¬condJK0 (grid0.coords t)) (hj0 : ¬condJ0 (grid0.coords t)) (hk7 : ¬condK7 (grid0.coords t)) (x : Vec F S1024x512 .f32) (w : Vec F S512x512 .f32) : Vec F S1024x512 .f32 :=
  VAcc.read (Elt F) (VAcc.writes (Elt F) VAcc.junk (RD c t hk0 hjk0 hj0 hk7 x w).1)

/-- The run of case E at point `t`, on the memrefs the point is called with. -/
abbrev RE (c : Dev nD) (t : Fin cfg0.N) (hk0 : ¬condK0 (grid0.coords t)) (hjk0 : ¬condJK0 (grid0.coords t)) (hj0 : ¬condJ0 (grid0.coords t)) (hk7 : ¬condK7 (grid0.coords t)) (x : Vec F S1024x512 .f32) (w : Vec F S512x512 .f32) (acc : Vec F S1024x512 .f32) :=
  runE (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w acc

/-- Case E's stores into the base accumulator cover it (each is a store of the whole buffer). -/
theorem cover_accE (c : Dev nD) (t : Fin cfg0.N) (hk0 : ¬condK0 (grid0.coords t)) (hjk0 : ¬condJK0 (grid0.coords t)) (hj0 : ¬condJ0 (grid0.coords t)) (hk7 : ¬condK7 (grid0.coords t)) (x : Vec F S1024x512 .f32) (w : Vec F S512x512 .f32) (acc : Vec F S1024x512 .f32) (y : S1024x512.Idx) :
    ∃ pc ∈ (RE c t hk0 hjk0 hj0 hk7 x w acc).1, y ∈ pc.1.set :=
  View.cover_of_tiledL (RE c t hk0 hjk0 hj0 hk7 x w acc).1 S1024x512.size (by sl_kernel_rfl) y
/-- What they leave there, read back. -/
def accE (c : Dev nD) (t : Fin cfg0.N) (hk0 : ¬condK0 (grid0.coords t)) (hjk0 : ¬condJK0 (grid0.coords t)) (hj0 : ¬condJ0 (grid0.coords t)) (hk7 : ¬condK7 (grid0.coords t)) (x : Vec F S1024x512 .f32) (w : Vec F S512x512 .f32) (acc : Vec F S1024x512 .f32) : Vec F S1024x512 .f32 :=
  VAcc.read (Elt F) (VAcc.writes (Elt F) VAcc.junk (RE c t hk0 hjk0 hj0 hk7 x w acc).1)

/-- The run of case F at point `t`, on the memrefs the point is called with. -/
abbrev RF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) :=
  runF (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w bias b acc xr

/-- Case F's stores into the output block cover it (each is a store of the whole buffer). -/
theorem cover_outF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) (y : S1024x512.Idx) :
    ∃ pc ∈ (RF c t hk0 hjk0 hj0 hk7 x w bias b acc xr).1, y ∈ pc.1.set :=
  View.cover_of_tiledL (RF c t hk0 hjk0 hj0 hk7 x w bias b acc xr).1 S1024x512.size (by sl_kernel_rfl) y
/-- What they leave there, read back. -/
def outF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) : Vec F S1024x512 .f32 :=
  VO.read (Elt F) (VO.writes (Elt F) VO.junk (RF c t hk0 hjk0 hj0 hk7 x w bias b acc xr).1)

/-- Case F's stores into the base accumulator cover it (each is a store of the whole buffer). -/
theorem cover_accF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) (y : S1024x512.Idx) :
    ∃ pc ∈ (RF c t hk0 hjk0 hj0 hk7 x w bias b acc xr).2.1, y ∈ pc.1.set :=
  View.cover_of_tiledL (RF c t hk0 hjk0 hj0 hk7 x w bias b acc xr).2.1 S1024x512.size (by sl_kernel_rfl) y
/-- What they leave there, read back. -/
def accF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) : Vec F S1024x512 .f32 :=
  VAcc.read (Elt F) (VAcc.writes (Elt F) VAcc.junk (RF c t hk0 hjk0 hj0 hk7 x w bias b acc xr).2.1)

/-! ## Point by point -/

/-- What point `t` leaves in (output buffer, base accumulator, cached projection), given what the point before left in
    the two scratch buffers (`prev`): the case is read off `t` (j = 0 iff t mod 64 < 8; k = t mod 8). -/
def stepAt (c : Dev nD) (t : Fin cfg0.N) (prev : Vec F S1024x512 .f32 × Vec F S1024x16 .f32) :
    Vec F S1024x512 .f32 × Vec F S1024x512 .f32 × Vec F S1024x16 .f32 :=
  if hj : t.val % 64 < 8 then
    if h0 : t.val % 8 = 0 then
      ((VO.read (Elt F) VO.junk), accA c t ((hcondK0 t).mpr h0) ((hcondJK0 t).mpr (by omega)) ((hcondJ0 t).mpr hj) (fun h => by have := (hcondK7 t).mp h; omega) (iblk m c 0 t) (iblk m c 1 t) (iblk m c 3 t), xrA c t ((hcondK0 t).mpr h0) ((hcondJK0 t).mpr (by omega)) ((hcondJ0 t).mpr hj) (fun h => by have := (hcondK7 t).mp h; omega) (iblk m c 0 t) (iblk m c 1 t) (iblk m c 3 t))
    else if h7 : t.val % 8 = 7 then
      (outC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, accC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, xrC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2)
    else
      ((VO.read (Elt F) VO.junk), accB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2, xrB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2)
  else
    if h0 : t.val % 8 = 0 then
      ((VO.read (Elt F) VO.junk), accD c t ((hcondK0 t).mpr h0) (fun h => hj (by have := (hcondJK0 t).mp h; omega)) (fun h => hj ((hcondJ0 t).mp h)) (fun h => by have := (hcondK7 t).mp h; omega) (iblk m c 0 t) (iblk m c 1 t), prev.2)
    else if h7 : t.val % 8 = 7 then
      (outF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, accF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, prev.2)
    else
      ((VO.read (Elt F) VO.junk), accE c t (fun h => h0 ((hcondK0 t).mp h)) (fun h => hj (by have := (hcondJK0 t).mp h; omega)) (fun h => hj ((hcondJ0 t).mp h)) (fun h => h7 ((hcondK7 t).mp h)) (iblk m c 0 t) (iblk m c 1 t) prev.1, prev.2)

/-- What the scratch buffers hold before anything was stored: nothing the run depends on. -/
def junkPair : Vec F S1024x512 .f32 × Vec F S1024x16 .f32 := (VAcc.read (Elt F) VAcc.junk, VXr.read (Elt F) VXr.junk)

/-- The three buffers after point `n`. -/
def stAt (c : Dev nD) : (n : ℕ) → n < cfg0.N → Vec F S1024x512 .f32 × Vec F S1024x512 .f32 × Vec F S1024x16 .f32
  | 0, hn => stepAt m c ⟨0, hn⟩ junkPair
  | n + 1, hn => stepAt m c ⟨n + 1, hn⟩ (stAt c n (Nat.lt_of_succ_lt hn)).2

/-- What the point before `t` left in the two scratch buffers. -/
def prevAt (c : Dev nD) (t : Fin cfg0.N) : Vec F S1024x512 .f32 × Vec F S1024x16 .f32 :=
  if h : t.val = 0 then junkPair else (stAt m c (t.val - 1) (Nat.lt_of_le_of_lt (Nat.sub_le _ _) t.isLt)).2

theorem stAt_eq (c : Dev nD) (t : Fin cfg0.N) : stAt m c t.val t.isLt = stepAt m c t (prevAt m c t) := by
  obtain ⟨n, hn⟩ := t
  cases n with
  | zero => unfold prevAt; rw [dif_pos rfl]; rfl
  | succ n => unfold prevAt; rw [dif_neg (Nat.succ_ne_zero n)]; rfl

theorem prevAt_pos (c : Dev nD) (t : Fin cfg0.N) (hz : t.val ≠ 0) :
    prevAt m c t = (stAt m c (t.val - 1) (Nat.lt_of_le_of_lt (Nat.sub_le _ _) t.isLt)).2 := by
  unfold prevAt; rw [dif_neg hz]

/-! ### The six cases of `stepAt` -/

theorem stepAt_A (c : Dev nD) (t : Fin cfg0.N) (prev) (hj : t.val % 64 < 8) (h0 : t.val % 8 = 0) :
    stepAt m c t prev = ((VO.read (Elt F) VO.junk), accA c t ((hcondK0 t).mpr h0) ((hcondJK0 t).mpr (by omega)) ((hcondJ0 t).mpr hj) (fun h => by have := (hcondK7 t).mp h; omega) (iblk m c 0 t) (iblk m c 1 t) (iblk m c 3 t), xrA c t ((hcondK0 t).mpr h0) ((hcondJK0 t).mpr (by omega)) ((hcondJ0 t).mpr hj) (fun h => by have := (hcondK7 t).mp h; omega) (iblk m c 0 t) (iblk m c 1 t) (iblk m c 3 t)) := by
  unfold stepAt; rw [dif_pos hj, dif_pos h0]
theorem stepAt_B (c : Dev nD) (t : Fin cfg0.N) (prev) (hj : t.val % 64 < 8) (h0 : ¬t.val % 8 = 0) (h7 : ¬t.val % 8 = 7) :
    stepAt m c t prev = ((VO.read (Elt F) VO.junk), accB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2, xrB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2) := by
  unfold stepAt; rw [dif_pos hj, dif_neg h0, dif_neg h7]
theorem stepAt_C (c : Dev nD) (t : Fin cfg0.N) (prev) (hj : t.val % 64 < 8) (h0 : ¬t.val % 8 = 0) (h7 : t.val % 8 = 7) :
    stepAt m c t prev = (outC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, accC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, xrC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2) := by
  unfold stepAt; rw [dif_pos hj, dif_neg h0, dif_pos h7]
theorem stepAt_D (c : Dev nD) (t : Fin cfg0.N) (prev) (hj : ¬t.val % 64 < 8) (h0 : t.val % 8 = 0) :
    stepAt m c t prev = ((VO.read (Elt F) VO.junk), accD c t ((hcondK0 t).mpr h0) (fun h => hj (by have := (hcondJK0 t).mp h; omega)) (fun h => hj ((hcondJ0 t).mp h)) (fun h => by have := (hcondK7 t).mp h; omega) (iblk m c 0 t) (iblk m c 1 t), prev.2) := by
  unfold stepAt; rw [dif_neg hj, dif_pos h0]
theorem stepAt_E (c : Dev nD) (t : Fin cfg0.N) (prev) (hj : ¬t.val % 64 < 8) (h0 : ¬t.val % 8 = 0) (h7 : ¬t.val % 8 = 7) :
    stepAt m c t prev = ((VO.read (Elt F) VO.junk), accE c t (fun h => h0 ((hcondK0 t).mp h)) (fun h => hj (by have := (hcondJK0 t).mp h; omega)) (fun h => hj ((hcondJ0 t).mp h)) (fun h => h7 ((hcondK7 t).mp h)) (iblk m c 0 t) (iblk m c 1 t) prev.1, prev.2) := by
  unfold stepAt; rw [dif_neg hj, dif_neg h0, dif_neg h7]
theorem stepAt_F (c : Dev nD) (t : Fin cfg0.N) (prev) (hj : ¬t.val % 64 < 8) (h0 : ¬t.val % 8 = 0) (h7 : t.val % 8 = 7) :
    stepAt m c t prev = (outF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, accF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, prev.2) := by
  unfold stepAt; rw [dif_neg hj, dif_neg h0, dif_pos h7]

/-! ## The invariant between two points -/

/-- Before the first point the scratch buffers hold anything; before point `n + 1` they hold what point `n` left. -/
def PhiS (c : Dev nD) : (n : ℕ) → n ≤ cfg0.N → sProp 𝕄
  | 0, _ => Pipeline.ΦA spec0 c
  | n + 1, hn => iprop(iprop(owns (c : Thread nD τ) accM fullShare ((stAt m c n hn).2.1) ∗ owns (c : Thread nD τ) xrM fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stAt m c n hn).2.1) ∗ owns (c : Thread nD τ) xrM fullShare ((stAt m c n hn).2.2)) ∗ (∃ r, prngReg c r)) := rfl
theorem PhiS_pos (c : Dev nD) (n : ℕ) (h : n ≤ cfg0.N) (hz : n ≠ 0) :
    PhiS m c n h = iprop(iprop(owns (c : Thread nD τ) accM fullShare ((stAt m c (n - 1) (by omega)).2.1) ∗ owns (c : Thread nD τ) xrM fullShare ((stAt m c (n - 1) (by omega)).2.2)) ∗ (∃ r, prngReg c r)) := by
  cases n with
  | zero => exact absurd rfl hz
  | succ n => rfl

/-! ## The proof data -/

/-- The arrays as the region finds them; after the body at point `t` each input's buffer at its block and the output's
    at `stAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation's two sides, the windows one by one -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window is live at every point: the body hands its buffer back at its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
/-- The output window where k = 7: handed back at what the point stored. -/
theorem leaves5_live (c : Dev nD) (t : Fin cfg0.N) (h : condK7 (grid0.coords t)) :
    (dats m 0 c).leavesExact 5 t = owns (c : Thread nD τ) (ms5 t) fullShare ((stAt m c t.val t.isLt).1) := by
  unfold Dat.leavesExact; rw [live5 t h, after5]
/-- Elsewhere: handed back as found. -/
theorem leaves5_idle (c : Dev nD) (t : Fin cfg0.N) (h : ¬condK7 (grid0.coords t)) :
    (dats m 0 c).leavesExact 5 t = iprop(∃ d, owns (c : Thread nD τ) (ms5 t) fullShare ((dats m 0 c).before 5 t d)) :=
  Dat.leavesExact_idle (dats m 0 c) 5 t (idle5 t h) (noFlush5 t h)

end Cert.Kernel.Body

end
-- ==== Proof.K.ObA.lean ====
/-
  The body's specification at a point of the case j = 0, k = 0: both scratch buffers are zeroed first, so what they held (anything before the very first point, the
  previous row block's leftovers later) does not matter.
  The invariant hands the body the two scratch buffers, the case's run applies, and the invariant takes them back at this
  point's contents; every input window is handed back at its block, the core owes nothing throughout.
-/
import proofs.«163484_j40355512714072_1_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_A (c : Dev nD) (t : Fin cfg0.N) (hj : t.val % 64 < 8) (h0 : t.val % 8 = 0) :
    bodyPre m c t ⊢ wp frame (wpE (defs₀ (F := F)) Variants.none c none) Set.univ (bodyAt0 t) (fun _ => bodyPost m c t) := by
  have hk7 : ¬condK7 (grid0.coords t) := fun h => by have := (hcondK7 t).mp h; omega
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, stepAt_A m c t _ hj h0]
  unfold accA xrA; dsimp only
  by_cases hz : t.val = 0
  · rw [PhiS_castSucc m c t, PhiS_zero m c _ _ hz, PhiA_eq]
    iintro ⟨⟨⟨HAcc, HXr⟩, Hg⟩, Ho, ⟨%d0, H0⟩, ⟨%d1, H1⟩, ⟨%d2, H2⟩, ⟨%d3, H3⟩, ⟨%d4, H4⟩, H5⟩
    iapply ((RA c t ((hcondK0 t).mpr h0) ((hcondJK0 t).mpr (by omega)) ((hcondJ0 t).mpr hj) (fun h => by have := (hcondK7 t).mp h; omega) (iblk m c 0 t) (iblk m c 1 t) (iblk m c 3 t)).2.2 Set.univ _)
    isplitl [H0]; · iexact H0
    isplitl [H1]; · iexact H1
    isplitl [H3]; · iexact H3
    isplitl [HAcc]; · iexact HAcc
    isplitl [HXr]; · iexact HXr
    iintro ⟨H0, H1, H3, ⟨%e9, HAcc⟩, ⟨%e10, HXr⟩⟩
    isplitl [HAcc HXr Hg]
    · isplitl [HAcc HXr]
      · isplitl [HAcc]
        · unfold owns; iexists _; isplitr
          swap; · iexact HAcc
          ipureintro; exact View.read_writes_of_cover _ _ _ _ _ (cover_accA c t ((hcondK0 t).mpr h0) ((hcondJK0 t).mpr (by omega)) ((hcondJ0 t).mpr hj) (fun h => by have := (hcondK7 t).mp h; omega) (iblk m c 0 t) (iblk m c 1 t) (iblk m c 3 t))
        · unfold owns; iexists _; isplitr
          swap; · iexact HXr
          ipureintro; exact View.read_writes_of_cover _ _ _ _ _ (cover_xrA c t ((hcondK0 t).mpr h0) ((hcondJK0 t).mpr (by omega)) ((hcondJ0 t).mpr hj) (fun h => by have := (hcondK7 t).mp h; omega) (iblk m c 0 t) (iblk m c 1 t) (iblk m c 3 t))
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m c t, PhiS_pos m c _ _ hz]
    iintro ⟨⟨⟨HAcc, HXr⟩, Hg⟩, Ho, ⟨%d0, H0⟩, ⟨%d1, H1⟩, ⟨%d2, H2⟩, ⟨%d3, H3⟩, ⟨%d4, H4⟩, H5⟩
    iapply ((RA c t ((hcondK0 t).mpr h0) ((hcondJK0 t).mpr (by omega)) ((hcondJ0 t).mpr hj) (fun h => by have := (hcondK7 t).mp h; omega) (iblk m c 0 t) (iblk m c 1 t) (iblk m c 3 t)).2.2 Set.univ _)
    isplitl [H0]; · iexact H0
    isplitl [H1]; · iexact H1
    isplitl [H3]; · iexact H3
    isplitl [HAcc]; · iexists _; iexact HAcc
    isplitl [HXr]; · iexists _; iexact HXr
    iintro ⟨H0, H1, H3, ⟨%e9, HAcc⟩, ⟨%e10, HXr⟩⟩
    isplitl [HAcc HXr Hg]
    · isplitl [HAcc HXr]
      · isplitl [HAcc]
        · unfold owns; iexists _; isplitr
          swap; · iexact HAcc
          ipureintro; exact View.read_writes_of_cover _ _ _ _ _ (cover_accA c t ((hcondK0 t).mpr h0) ((hcondJK0 t).mpr (by omega)) ((hcondJ0 t).mpr hj) (fun h => by have := (hcondK7 t).mp h; omega) (iblk m c 0 t) (iblk m c 1 t) (iblk m c 3 t))
        · unfold owns; iexists _; isplitr
          swap; · iexact HXr
          ipureintro; exact View.read_writes_of_cover _ _ _ _ _ (cover_xrA c t ((hcondK0 t).mpr h0) ((hcondJK0 t).mpr (by omega)) ((hcondJ0 t).mpr hj) (fun h => by have := (hcondK7 t).mp h; omega) (iblk m c 0 t) (iblk m c 1 t) (iblk m c 3 t))
      iexact Hg
    isplitl [Ho]; · iexact Ho
    isplitl [H0]; · iexact H0
    isplitl [H1]; · iexact H1
    isplitl [H2]; · iexact H2
    isplitl [H3]; · iexact H3
    isplitl [H4]; · iexact H4
    iexact H5

end Cert.Kernel.Body

end
-- ==== Proof.K.ObB.lean ====
/-
  The body's specification at a point of the case j = 0, 0 < k < 7: both scratch buffers are taken at what the point before left and handed back with one more block added.
  The invariant hands the body the two scratch buffers, the case's run applies, and the invariant takes them back at this
  point's contents; every input window is handed back at its block, the core owes nothing throughout.
-/
import proofs.«163484_j40355512714072_1_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_B (c : Dev nD) (t : Fin cfg0.N) (hj : t.val % 64 < 8) (h0 : ¬t.val % 8 = 0) (h7 : ¬t.val % 8 = 7) :
    bodyPre m c t ⊢ wp frame (wpE (defs₀ (F := F)) Variants.none c none) Set.univ (bodyAt0 t) (fun _ => bodyPost m c t) := by
  have hz : t.val ≠ 0 := by omega
  have hk7 : ¬condK7 (grid0.coords t) := fun h => h7 ((hcondK7 t).mp h)
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, prevAt_pos m c t hz, stepAt_B m c t _ hj h0 h7]
  unfold accB xrB; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, H5⟩
  iapply ((RB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) ((stAt m c (t.val - 1) (Nat.lt_of_le_of_lt (Nat.sub_le _ _) t.isLt)).2.1) ((stAt m c (t.val - 1) (Nat.lt_of_le_of_lt (Nat.sub_le _ _) t.isLt)).2.2)).2.2 Set.univ _)
  isplitl [H0]; · iexact H0
  isplitl [H1]; · iexact H1
  isplitl [H3]; · iexact H3
  isplitl [HAcc]; · iexact HAcc
  isplitl [HXr]; · iexact HXr
  iintro ⟨H0, H1, H3, ⟨%e9, HAcc⟩, ⟨%e10, HXr⟩⟩
  isplitl [HAcc HXr Hg]
  · isplitl [HAcc HXr]
    · isplitl [HAcc]
      · unfold owns; iexists _; isplitr
        swap; · iexact HAcc
        ipureintro; exact View.read_writes_of_cover _ _ _ _ _ (cover_accB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) ((stAt m c (t.val - 1) (Nat.lt_of_le_of_lt (Nat.sub_le _ _) t.isLt)).2.1) ((stAt m c (t.val - 1) (Nat.lt_of_le_of_lt (Nat.sub_le _ _) t.isLt)).2.2))
      · unfold owns; iexists _; isplitr
        swap; · iexact HXr
        ipureintro; exact View.read_writes_of_cover _ _ _ _ _ (cover_xrB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) ((stAt m c (t.val - 1) (Nat.lt_of_le_of_lt (Nat.sub_le _ _) t.isLt)).2.1) ((stAt m c (t.val - 1) (Nat.lt_of_le_of_lt (Nat.sub_le _ _) t.isLt)).2.2))
    iexact Hg
  isplitl [Ho]; · iexact Ho
  isplitl [H0]; · iexact H0
  isplitl [H1]; · iexact H1
  isplitl [H2]; · iexact H2
  isplitl [H3]; · iexact H3
  isplitl [H4]; · iexact H4
  iexact H5

end Cert.Kernel.Body

end
-- ==== Proof.K.ObC.lean ====
/-
  The body's specification at a point of the case j = 0, k = 7: both scratch buffers take their last block and the output block is stored over whatever its buffer held.
  The invariant hands the body the two scratch buffers, the case's run applies, and the invariant takes them back at this
  point's contents; every input window is handed back at its block, the core owes nothing throughout.
-/
import proofs.«163484_j40355512714072_1_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_C (c : Dev nD) (t : Fin cfg0.N) (hj : t.val % 64 < 8) (h0 : ¬t.val % 8 = 0) (h7 : t.val % 8 = 7) :
    bodyPre m c t ⊢ wp frame (wpE (defs₀ (F := F)) Variants.none c none) Set.univ (bodyAt0 t) (fun _ => bodyPost m c t) := by
  have hz : t.val ≠ 0 := by omega
  have hk7 : condK7 (grid0.coords t) := (hcondK7 t).mpr h7
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_live m c t hk7]
  rw [stAt_eq m c t, prevAt_pos m c t hz, stepAt_C m c t _ hj h0 h7]
  unfold outC accC xrC; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, ⟨%d5, H5⟩⟩
  iapply ((RC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HAcc]; · iexact HAcc
  isplitl [HXr]; · iexact HXr
  iintro ⟨H0, H1, H2, H3, H4, ⟨%e8, H5⟩, ⟨%e9, HAcc⟩, ⟨%e10, HXr⟩⟩
  isplitl [HAcc HXr Hg]
  · isplitl [HAcc HXr]
    · isplitl [HAcc]
      · unfold owns; iexists _; isplitr
        swap; · iexact HAcc
        ipureintro; exact View.read_writes_of_cover _ _ _ _ _ (cover_accC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2))
      · unfold owns; iexists _; isplitr
        swap; · iexact HXr
        ipureintro; exact View.read_writes_of_cover _ _ _ _ _ (cover_xrC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2))
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover_outC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2))

end Cert.Kernel.Body

end
-- ==== Proof.K.ObD.lean ====
/-
  The body's specification at a point of the case j > 0, k = 0: the base accumulator restarts from zero; the cached projection passes through untouched.
  The invariant hands the body the two scratch buffers, the case's run applies, and the invariant takes them back at this
  point's contents; every input window is handed back at its block, the core owes nothing throughout.
-/
import proofs.«163484_j40355512714072_1_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_D (c : Dev nD) (t : Fin cfg0.N) (hj : ¬t.val % 64 < 8) (h0 : t.val % 8 = 0) :
    bodyPre m c t ⊢ wp frame (wpE (defs₀ (F := F)) Variants.none c none) Set.univ (bodyAt0 t) (fun _ => bodyPost m c t) := by
  have hz : t.val ≠ 0 := by omega
  have hk7 : ¬condK7 (grid0.coords t) := fun h => by have := (hcondK7 t).mp h; omega
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, prevAt_pos m c t hz, stepAt_D m c t _ hj h0]
  unfold accD; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, H5⟩
  iapply ((RD c t ((hcondK0 t).mpr h0) (fun h => hj (by have := (hcondJK0 t).mp h; omega)) (fun h => hj ((hcondJ0 t).mp h)) (fun h => by have := (hcondK7 t).mp h; omega) (iblk m c 0 t) (iblk m c 1 t)).2 Set.univ _)
  isplitl [H0]; · iexact H0
  isplitl [H1]; · iexact H1
  isplitl [HAcc]; · iexists _; iexact HAcc
  iintro ⟨H0, H1, ⟨%e9, HAcc⟩⟩
  isplitl [HAcc HXr Hg]
  · isplitl [HAcc HXr]
    · isplitl [HAcc]
      · unfold owns; iexists _; isplitr
        swap; · iexact HAcc
        ipureintro; exact View.read_writes_of_cover _ _ _ _ _ (cover_accD c t ((hcondK0 t).mpr h0) (fun h => hj (by have := (hcondJK0 t).mp h; omega)) (fun h => hj ((hcondJ0 t).mp h)) (fun h => by have := (hcondK7 t).mp h; omega) (iblk m c 0 t) (iblk m c 1 t))
      · iexact HXr
    iexact Hg
  isplitl [Ho]; · iexact Ho
  isplitl [H0]; · iexact H0
  isplitl [H1]; · iexact H1
  isplitl [H2]; · iexact H2
  isplitl [H3]; · iexact H3
  isplitl [H4]; · iexact H4
  iexact H5

end Cert.Kernel.Body

end
-- ==== Proof.K.ObE.lean ====
/-
  The body's specification at a point of the case j > 0, 0 < k < 7: the base accumulator takes one more block; the cached projection passes through untouched.
  The invariant hands the body the two scratch buffers, the case's run applies, and the invariant takes them back at this
  point's contents; every input window is handed back at its block, the core owes nothing throughout.
-/
import proofs.«163484_j40355512714072_1_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_E (c : Dev nD) (t : Fin cfg0.N) (hj : ¬t.val % 64 < 8) (h0 : ¬t.val % 8 = 0) (h7 : ¬t.val % 8 = 7) :
    bodyPre m c t ⊢ wp frame (wpE (defs₀ (F := F)) Variants.none c none) Set.univ (bodyAt0 t) (fun _ => bodyPost m c t) := by
  have hz : t.val ≠ 0 := by omega
  have hk7 : ¬condK7 (grid0.coords t) := fun h => h7 ((hcondK7 t).mp h)
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, prevAt_pos m c t hz, stepAt_E m c t _ hj h0 h7]
  unfold accE; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, H5⟩
  iapply ((RE c t (fun h => h0 ((hcondK0 t).mp h)) (fun h => hj (by have := (hcondJK0 t).mp h; omega)) (fun h => hj ((hcondJ0 t).mp h)) (fun h => h7 ((hcondK7 t).mp h)) (iblk m c 0 t) (iblk m c 1 t) ((stAt m c (t.val - 1) (Nat.lt_of_le_of_lt (Nat.sub_le _ _) t.isLt)).2.1)).2 Set.univ _)
  isplitl [H0]; · iexact H0
  isplitl [H1]; · iexact H1
  isplitl [HAcc]; · iexact HAcc
  iintro ⟨H0, H1, ⟨%e9, HAcc⟩⟩
  isplitl [HAcc HXr Hg]
  · isplitl [HAcc HXr]
    · isplitl [HAcc]
      · unfold owns; iexists _; isplitr
        swap; · iexact HAcc
        ipureintro; exact View.read_writes_of_cover _ _ _ _ _ (cover_accE c t (fun h => h0 ((hcondK0 t).mp h)) (fun h => hj (by have := (hcondJK0 t).mp h; omega)) (fun h => hj ((hcondJ0 t).mp h)) (fun h => h7 ((hcondK7 t).mp h)) (iblk m c 0 t) (iblk m c 1 t) ((stAt m c (t.val - 1) (Nat.lt_of_le_of_lt (Nat.sub_le _ _) t.isLt)).2.1))
      · iexact HXr
    iexact Hg
  isplitl [Ho]; · iexact Ho
  isplitl [H0]; · iexact H0
  isplitl [H1]; · iexact H1
  isplitl [H2]; · iexact H2
  isplitl [H3]; · iexact H3
  isplitl [H4]; · iexact H4
  iexact H5

end Cert.Kernel.Body

end
-- ==== Proof.K.ObF.lean ====
/-
  The body's specification at a point of the case j > 0, k = 7: the base accumulator takes its last block, the cached projection is read, and the output block is stored.
  The invariant hands the body the two scratch buffers, the case's run applies, and the invariant takes them back at this
  point's contents; every input window is handed back at its block, the core owes nothing throughout.
-/
import proofs.«163484_j40355512714072_1_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_F (c : Dev nD) (t : Fin cfg0.N) (hj : ¬t.val % 64 < 8) (h0 : ¬t.val % 8 = 0) (h7 : t.val % 8 = 7) :
    bodyPre m c t ⊢ wp frame (wpE (defs₀ (F := F)) Variants.none c none) Set.univ (bodyAt0 t) (fun _ => bodyPost m c t) := by
  have hz : t.val ≠ 0 := by omega
  have hk7 : condK7 (grid0.coords t) := (hcondK7 t).mpr h7
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_live m c t hk7]
  rw [stAt_eq m c t, prevAt_pos m c t hz, stepAt_F m c t _ hj h0 h7]
  unfold outF accF; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, ⟨%d5, H5⟩⟩
  iapply ((RF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) ((stAt m c (t.val - 1) (Nat.lt_of_le_of_lt (Nat.sub_le _ _) t.isLt)).2.1) ((stAt m c (t.val - 1) (Nat.lt_of_le_of_lt (Nat.sub_le _ _) t.isLt)).2.2)).2.2 Set.univ _)
  isplitl [H0]; · iexact H0
  isplitl [H1]; · iexact H1
  isplitl [H2]; · iexact H2
  isplitl [H4]; · iexact H4
  isplitl [H5]; · iexists _; iexact H5
  isplitl [HAcc]; · iexact HAcc
  isplitl [HXr]; · iexact HXr
  iintro ⟨H0, H1, H2, H4, ⟨%e8, H5⟩, ⟨%e9, HAcc⟩, HXr⟩
  isplitl [HAcc HXr Hg]
  · isplitl [HAcc HXr]
    · isplitl [HAcc]
      · unfold owns; iexists _; isplitr
        swap; · iexact HAcc
        ipureintro; exact View.read_writes_of_cover _ _ _ _ _ (cover_accF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) ((stAt m c (t.val - 1) (Nat.lt_of_le_of_lt (Nat.sub_le _ _) t.isLt)).2.1) ((stAt m c (t.val - 1) (Nat.lt_of_le_of_lt (Nat.sub_le _ _) t.isLt)).2.2))
      · iexact HXr
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover_outF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) ((stAt m c (t.val - 1) (Nat.lt_of_le_of_lt (Nat.sub_le _ _) t.isLt)).2.1) ((stAt m c (t.val - 1) (Nat.lt_of_le_of_lt (Nat.sub_le _ _) t.isLt)).2.2))

end Cert.Kernel.Body

end
-- ==== Proof.K.Oblig.lean ====
/-
  The frame of the program: the body's specification at every grid point (the six cases, told apart by t mod 64 and t mod 8),
  the two ends of the invariant (before the first point the scratch buffers hold anything; after the last their contents
  are forgotten), and the launch: every weakly fair execution of the whole program terminates, nothing faults, each
  window's array ends at what the write-backs of the proof data leave there, and the argument arrays end unchanged.
-/
import proofs.«163484_j40355512714072_1_alg».proof.Proof.K.ObA
import proofs.«163484_j40355512714072_1_alg».proof.Proof.K.ObB
import proofs.«163484_j40355512714072_1_alg».proof.Proof.K.ObC
import proofs.«163484_j40355512714072_1_alg».proof.Proof.K.ObD
import proofs.«163484_j40355512714072_1_alg».proof.Proof.K.ObE
import proofs.«163484_j40355512714072_1_alg».proof.Proof.K.ObF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: j = 0 iff t mod 64 < 8, and k = t mod 8 picks the first, a middle or the last block. -/
theorem sound_body (c : Dev nD) (t : Fin cfg0.N) :
    bodyPre m c t ⊢ wp frame (wpE (defs₀ (F := F)) Variants.none c none) Set.univ (bodyAt0 t) (fun _ => bodyPost m c t) := by
  by_cases hj : t.val % 64 < 8
  · by_cases h0 : t.val % 8 = 0
    · exact sound_A m c t hj h0
    · by_cases h7 : t.val % 8 = 7
      · exact sound_C m c t hj h0 h7
      · exact sound_B m c t hj h0 h7
  · by_cases h0 : t.val % 8 = 0
    · exact sound_D m c t hj h0
    · by_cases h7 : t.val % 8 = 7
      · exact sound_F m c t hj h0 h7
      · exact sound_E m c t hj h0 h7

/-- The body obligation of the pipeline, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point but the first the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HAcc, HXr⟩, Hg⟩
  isplitl [HAcc HXr]
  · isplitl [HAcc]
    · iexists _; iexact HAcc
    · iexists _; iexact HXr
  iexact Hg

theorem hout (c : Dev nD) : (dats m 0 c).Φ (Fin.last cfg0.N) ⊢ Pipeline.ΦA spec0 c :=
  Phi_out m c _ (by rw [Fin.val_last]; have : cfg0.N = 1024 := N_0; omega)

set_option backward.isDefEq.respectTransparency.types false in
/-- Every weakly fair execution of the program terminates, and in every final state each window's array holds what the
    proof data's write-backs leave and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its five argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.Conds.lean ====
/-
  The four branch conditions of the kernel body as propositions on the grid point (i, j, k) of the 16 × 8 × 8 grid, and
  which points satisfy them, with the point numbered t = 64 i + 8 j + k:
    the base accumulator is reset        where k = 0            (t ≡ 0 mod 8),
    the cached projection is reset       where j = 0 and k = 0  (t ≡ 0 mod 64),
    the cached projection is added to    where j = 0            (t mod 64 < 8),
    the output block is stored           where k = 7            (t ≡ 7 mod 8).
  The output window is idle exactly where k ≠ 7, and is written back exactly where k = 7.
  Also the names of the staging memrefs a point is called with, and the two scratch buffers as whole memrefs.
-/
import proofs.«163484_j40355512714072_1_alg».proof.Proof.Gen.KernelIdeal.Frame
import proofs.«163484_j40355512714072_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- `k = 0`: the base accumulator is zeroed. -/
abbrev condK0 (i : grid0.Coords) : Prop :=
  (Scalar.cmpi .ne (Scalar.extui (Scalar.cmpi .eq (BitVec.ofNat 32 (i 2).val) 0#32)) 0#32) = 1#1
/-- `j = 0` and `k = 0`: the cached projection is zeroed. -/
abbrev condJK0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0`: the projection of this block of the contraction axis is added to the cache. -/
abbrev condJ0 (i : grid0.Coords) : Prop :=
  (Scalar.cmpi .ne (Scalar.extui (Scalar.cmpi .eq (BitVec.ofNat 32 (i 1).val) 0#32)) 0#32) = 1#1
/-- `k = 7`: the last block of the contraction axis; the output block is stored. -/
abbrev condK7 (i : grid0.Coords) : Prop := k0_cond4 i = 1#1

theorem hcondK0 : ∀ t : Fin cfg0.N, condK0 (grid0.coords t) ↔ t.val % 8 = 0 :=
  (by decide +kernel : ∀ t : Fin grid0.N, condK0 (grid0.coords t) ↔ t.val % 8 = 0)
theorem hcondJK0 : ∀ t : Fin cfg0.N, condJK0 (grid0.coords t) ↔ t.val % 64 = 0 :=
  (by decide +kernel : ∀ t : Fin grid0.N, condJK0 (grid0.coords t) ↔ t.val % 64 = 0)
theorem hcondJ0 : ∀ t : Fin cfg0.N, condJ0 (grid0.coords t) ↔ t.val % 64 < 8 :=
  (by decide +kernel : ∀ t : Fin grid0.N, condJ0 (grid0.coords t) ↔ t.val % 64 < 8)
theorem hcondK7 : ∀ t : Fin cfg0.N, condK7 (grid0.coords t) ↔ t.val % 8 = 7 :=
  (by decide +kernel : ∀ t : Fin grid0.N, condK7 (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last block of the contraction axis nothing is stored into the output window, -/
theorem idle5 : ∀ t : Fin cfg0.N, ¬condK7 (grid0.coords t) → cfg0.idle 5 (grid0.coords t) = true := by decide +kernel
/-- nor is it written back; -/
theorem noFlush5 : ∀ t : Fin cfg0.N, ¬condK7 (grid0.coords t) → (cfg0.win 5).flush t = false := by decide +kernel
/-- at the last block it is stored. -/
theorem live5 : ∀ t : Fin cfg0.N, condK7 (grid0.coords t) → cfg0.idle 5 (grid0.coords t) = false := by decide +kernel

/-! ## The memrefs a point is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
/-- The base accumulator (1024 × 512) and the cached projection (1024 × 16): whole scratch buffers. -/
abbrev accM : Memref sig .tc .vmem S1024x512 .f32 := Memref.whole cc0_scratch0
abbrev xrM : Memref sig .tc .vmem S1024x16 .f32 := Memref.whole cc0_scratch1
/-- One view through which each written buffer's contents are stated (the choice does not matter). -/
abbrev VO : View sig .tc .vmem S1024x512 .f32 := (Memref.whole cc0_stg5_0 : Memref sig .tc .vmem S1024x512 .f32).view
abbrev VAcc : View sig .tc .vmem S1024x512 .f32 := (accM).view
abbrev VXr : View sig .tc .vmem S1024x16 .f32 := (xrM).view

/-- What the region hands the body besides the windows: the two scratch buffers at some contents each, and the
    generator register at some state. -/
theorem PhiA_eq (c : Dev nD) :
    (Pipeline.ΦA spec0 c : sProp 𝕄)
      = iprop(iprop((∃ d, owns (c : Thread nD τ) accM fullShare d) ∗ (∃ d, owns (c : Thread nD τ) xrM fullShare d)) ∗ (∃ r, prngReg c r)) := by
  unfold Pipeline.ΦA; rw [scopedRest0_eq]; simp only [accM, xrM, owns_whole]; try rfl

end Cert.KernelIdeal.Body

end
-- ==== Proof.KI.RunA.lean ====
/-
  The body at a point with j = 0 and k = 0, the first point of a row block.  Both scratch buffers are zeroed before use,
  so whatever they held is irrelevant: the base accumulator ends at 0 + x·wᵀ of this block of the contraction axis, the
  cached projection at 0 + x·aᵀ of it.  The output window is not touched.  What each scratch buffer then holds is
  recorded as the list of stores the run makes into it (the zeroing store first, the accumulating store last).
-/
import proofs.«163484_j40355512714072_1_alg».proof.Proof.KI.Conds
import Idealize.ShloMosaic.Lib.Exec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runA (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : condK0 i) (hjk0 : condJK0 i) (hj0 : condJ0 i) (hk7 : ¬condK7 i)
    (x : Vec F S1024x512 .f32) (w : Vec F S512x512 .f32) (a : Vec F S16x512 .f32) :
    Σ' (LAcc : List (View.Piece (Elt F) S1024x512 .f32)), { LXr : List (View.Piece (Elt F) S1024x16 .f32) //
      ∀ (E : Set ℕ) (K : PUnit → sProp 𝕄),
        iprop(owns (c : Thread nD τ) arg3 fullShare x ∗ owns (c : Thread nD τ) arg4 fullShare w ∗ owns (c : Thread nD τ) arg6 fullShare a ∗ (∃ d, owns (c : Thread nD τ) arg9 fullShare d) ∗ (∃ d, owns (c : Thread nD τ) arg10 fullShare d)
            ∗ (iprop(owns (c : Thread nD τ) arg3 fullShare x ∗ owns (c : Thread nD τ) arg4 fullShare w ∗ owns (c : Thread nD τ) arg6 fullShare a ∗ (∃ f, arg9.view.loc (c : Thread nD τ) ↦[arg9.view.set]{fullShare} arg9.view.writes (Elt F) f LAcc) ∗ (∃ f, arg10.view.loc (c : Thread nD τ) ↦[arg10.view.set]{fullShare} arg10.view.writes (Elt F) f LXr)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H6⟩, ⟨%d3, %f3, -, H9⟩, ⟨%d4, %f4, -, H10⟩, Hk⟩
    obtain rfl := harg3.eq_unread hf0; obtain rfl := harg4.eq_unread hf1; obtain rfl := harg6.eq_unread hf2
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H9]
    · iexists _; iexact H9
    iexists _; iexact H10

end Cert.KernelIdeal.Body

end
-- ==== Proof.KI.RunB.lean ====
/-
  The body at a point with j = 0 and 0 < k < 7.  The product of the activations' block with the weight's block is added
  to the base accumulator, and the product with the low-rank factor's block to the cached projection, each over what the
  point before left there.  The output window is not touched.
-/
import proofs.«163484_j40355512714072_1_alg».proof.Proof.KI.Conds
import Idealize.ShloMosaic.Lib.Exec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runB (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : condJ0 i) (hk7 : ¬condK7 i)
    (x : Vec F S1024x512 .f32) (w : Vec F S512x512 .f32) (a : Vec F S16x512 .f32) (acc : Vec F S1024x512 .f32) (xr : Vec F S1024x16 .f32) :
    Σ' (LAcc : List (View.Piece (Elt F) S1024x512 .f32)), { LXr : List (View.Piece (Elt F) S1024x16 .f32) //
      ∀ (E : Set ℕ) (K : PUnit → sProp 𝕄),
        iprop(owns (c : Thread nD τ) arg3 fullShare x ∗ owns (c : Thread nD τ) arg4 fullShare w ∗ owns (c : Thread nD τ) arg6 fullShare a ∗ owns (c : Thread nD τ) arg9 fullShare acc ∗ owns (c : Thread nD τ) arg10 fullShare xr
            ∗ (iprop(owns (c : Thread nD τ) arg3 fullShare x ∗ owns (c : Thread nD τ) arg4 fullShare w ∗ owns (c : Thread nD τ) arg6 fullShare a ∗ (∃ f, arg9.view.loc (c : Thread nD τ) ↦[arg9.view.set]{fullShare} arg9.view.writes (Elt F) f LAcc) ∗ (∃ f, arg10.view.loc (c : Thread nD τ) ↦[arg10.view.set]{fullShare} arg10.view.writes (Elt F) f LXr)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H6⟩, ⟨%f3, %hf3, H9⟩, ⟨%f4, %hf4, H10⟩, Hk⟩
    obtain rfl := harg3.eq_unread hf0; obtain rfl := harg4.eq_unread hf1; obtain rfl := harg6.eq_unread hf2; obtain rfl := harg9.eq_unread hf3; obtain rfl := harg10.eq_unread hf4
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H9]
    · iexists _; iexact H9
    iexists _; iexact H10

end Cert.KernelIdeal.Body

end
-- ==== Proof.KI.RunC.lean ====
/-
  The body at a point with j = 0 and k = 7, the last block of the contraction axis in the first column block.  Both
  accumulations take their last summand; then the output block is stored: the finished base accumulator plus the bias row
  plus twice the finished projection times the second low-rank factor's block.  Whatever the output buffer held is
  overwritten.
-/
import proofs.«163484_j40355512714072_1_alg».proof.Proof.KI.Conds
import Idealize.ShloMosaic.Lib.Exec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runC (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : condJ0 i) (hk7 : condK7 i)
    (x : Vec F S1024x512 .f32) (w : Vec F S512x512 .f32) (bias : Vec F S1x512 .f32) (a : Vec F S16x512 .f32) (b : Vec F S512x16 .f32) (acc : Vec F S1024x512 .f32) (xr : Vec F S1024x16 .f32) :
    Σ' (LOut : List (View.Piece (Elt F) S1024x512 .f32)), Σ' (LAcc : List (View.Piece (Elt F) S1024x512 .f32)), { LXr : List (View.Piece (Elt F) S1024x16 .f32) //
      ∀ (E : Set ℕ) (K : PUnit → sProp 𝕄),
        iprop(owns (c : Thread nD τ) arg3 fullShare x ∗ owns (c : Thread nD τ) arg4 fullShare w ∗ owns (c : Thread nD τ) arg5 fullShare bias ∗ owns (c : Thread nD τ) arg6 fullShare a ∗ owns (c : Thread nD τ) arg7 fullShare b ∗ (∃ d, owns (c : Thread nD τ) arg8 fullShare d) ∗ owns (c : Thread nD τ) arg9 fullShare acc ∗ owns (c : Thread nD τ) arg10 fullShare xr
            ∗ (iprop(owns (c : Thread nD τ) arg3 fullShare x ∗ owns (c : Thread nD τ) arg4 fullShare w ∗ owns (c : Thread nD τ) arg5 fullShare bias ∗ owns (c : Thread nD τ) arg6 fullShare a ∗ owns (c : Thread nD τ) arg7 fullShare b ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LAcc) ∗ (∃ f, arg10.view.loc (c : Thread nD τ) ↦[arg10.view.set]{fullShare} arg10.view.writes (Elt F) f LXr)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H5⟩, ⟨%f3, %hf3, H6⟩, ⟨%f4, %hf4, H7⟩, ⟨%d5, %f5, -, H8⟩, ⟨%f6, %hf6, H9⟩, ⟨%f7, %hf7, H10⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.KernelIdeal.Body

end
-- ==== Proof.KI.RunD.lean ====
/-
  The body at a point with j > 0 and k = 0: the base accumulator is zeroed and takes its first summand; the cached
  projection, finished while j was 0, is left as it is, and the output window is not touched.
-/
import proofs.«163484_j40355512714072_1_alg».proof.Proof.KI.Conds
import Idealize.ShloMosaic.Lib.Exec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runD (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : condK0 i) (hjk0 : ¬condJK0 i) (hj0 : ¬condJ0 i) (hk7 : ¬condK7 i)
    (x : Vec F S1024x512 .f32) (w : Vec F S512x512 .f32) :
    { LAcc : List (View.Piece (Elt F) S1024x512 .f32) //
      ∀ (E : Set ℕ) (K : PUnit → sProp 𝕄),
        iprop(owns (c : Thread nD τ) arg3 fullShare x ∗ owns (c : Thread nD τ) arg4 fullShare w ∗ (∃ d, owns (c : Thread nD τ) arg9 fullShare d)
            ∗ (iprop(owns (c : Thread nD τ) arg3 fullShare x ∗ owns (c : Thread nD τ) arg4 fullShare w ∗ (∃ f, arg9.view.loc (c : Thread nD τ) ↦[arg9.view.set]{fullShare} arg9.view.writes (Elt F) f LAcc)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%d2, %f2, -, H9⟩, Hk⟩
    obtain rfl := harg3.eq_unread hf0; obtain rfl := harg4.eq_unread hf1
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    iexists _; iexact H9

end Cert.KernelIdeal.Body

end
-- ==== Proof.KI.RunE.lean ====
/-
  The body at a point with j > 0 and 0 < k < 7: none of the four branches is taken.  It reads the activations' block and
  the weight's block, and adds their product to the base accumulator; the cached projection and the output are not
  touched.  What the accumulator then holds is recorded as the list of stores the run makes into it.
-/
import proofs.«163484_j40355512714072_1_alg».proof.Proof.KI.Conds
import Idealize.ShloMosaic.Lib.Exec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runE (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : ¬condJ0 i) (hk7 : ¬condK7 i)
    (x : Vec F S1024x512 .f32) (w : Vec F S512x512 .f32) (acc : Vec F S1024x512 .f32) :
    { LAcc : List (View.Piece (Elt F) S1024x512 .f32) //
      ∀ (E : Set ℕ) (K : PUnit → sProp 𝕄),
        iprop(owns (c : Thread nD τ) arg3 fullShare x ∗ owns (c : Thread nD τ) arg4 fullShare w ∗ owns (c : Thread nD τ) arg9 fullShare acc
            ∗ (iprop(owns (c : Thread nD τ) arg3 fullShare x ∗ owns (c : Thread nD τ) arg4 fullShare w ∗ (∃ f, arg9.view.loc (c : Thread nD τ) ↦[arg9.view.set]{fullShare} arg9.view.writes (Elt F) f LAcc)) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, fun E K => ?run⟩
  case run =>
    simp only [cc0__lora_linear_kernel_eq_skeleton]; unfold cc0__lora_linear_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hk0 | exact hjk0 | exact hj0 | exact hk7)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Body

end
-- ==== Proof.KI.RunF.lean ====
/-
  The body at a point with j > 0 and k = 7.  The base accumulator takes its last summand; the cached projection is only
  read; the output block is stored: the finished accumulator plus the bias row plus twice the cached projection times the
  second low-rank factor's block.
-/
import proofs.«163484_j40355512714072_1_alg».proof.Proof.KI.Conds
import Idealize.ShloMosaic.Lib.Exec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runF (c : Dev nD) (i : grid0.Coords) (arg3 : Memref sig .tc .vmem S1024x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S16x512 .f32) (harg6 : arg6.IsWhole) (arg7 : Memref sig .tc .vmem S512x16 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x16 .f32) (harg10 : arg10.IsWhole)
    (hk0 : ¬condK0 i) (hjk0 : ¬condJK0 i) (hj0 : ¬condJ0 i) (hk7 : condK7 i)
    (x : Vec F S1024x512 .f32) (w : Vec F S512x512 .f32) (bias : Vec F S1x512 .f32) (b : Vec F S512x16 .f32) (acc : Vec F S1024x512 .f32) (xr : Vec F S1024x16 .f32) :
    Σ' (LOut : List (View.Piece (Elt F) S1024x512 .f32)), { LAcc : List (View.Piece (Elt F) S1024x512 .f32) //
      ∀ (E : Set ℕ) (K : PUnit → sProp 𝕄),
        iprop(owns (c : Thread nD τ) arg3 fullShare x ∗ owns (c : Thread nD τ) arg4 fullShare w ∗ owns (c : Thread nD τ) arg5 fullShare bias ∗ owns (c : Thread nD τ) arg7 fullShare b ∗ (∃ d, owns (c : Thread nD τ) arg8 fullShare d) ∗ owns (c : Thread nD τ) arg9 fullShare acc ∗ owns (c : Thread nD τ) arg10 fullShare xr
            ∗ (iprop(owns (c : Thread nD τ) arg3 fullShare x ∗ owns (c : Thread nD τ) arg4 fullShare w ∗ owns (c : Thread nD τ) arg5 fullShare bias ∗ owns (c : Thread nD τ) arg7 fullShare b ∗ (∃ f, arg8.view.loc (c : Thread nD τ) ↦[arg8.view.set]{fullShare} arg8.view.writes (Elt F) f LOut) ∗ (∃ f, arg9.view.loc (c : Thread nD τ) ↦[arg9.view.set]{fullShare} arg9.view.writes (Elt F) f LAcc) ∗ owns (c : Thread nD τ) arg10 fullShare xr) -∗ K ⟨⟩))
          ⊢ wp frame (wpE (defs₀ (F := F)) Variants.none c none) E (cc0__lora_linear_kernel i arg3 harg3 arg4 harg4 arg5 harg5 arg6 harg6 arg7 harg7 arg8 harg8 arg9 harg9 arg10 harg10) K } := by
  refine ⟨?_, ?_, fun E K => ?run⟩
  case run =>
    simp only [cc0__lora_linear_kernel_eq_skeleton]; unfold cc0__lora_linear_kernel_skel
    unfold owns
    iintro ⟨⟨%f0, %hf0, H3⟩, ⟨%f1, %hf1, H4⟩, ⟨%f2, %hf2, H5⟩, ⟨%f3, %hf3, H7⟩, ⟨%d4, %f4, -, H8⟩, ⟨%f5, %hf5, H9⟩, ⟨%f6, %hf6, H10⟩, Hk⟩
    obtain rfl := harg3.eq_unread hf0; obtain rfl := harg4.eq_unread hf1; obtain rfl := harg5.eq_unread hf2; obtain rfl := harg7.eq_unread hf3; obtain rfl := harg9.eq_unread hf5; obtain rfl := harg10.eq_unread hf6
    sl_exec (disch := first | exact hk0 | exact hjk0 | exact hj0 | exact hk7)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; iexact H8
    isplitl [H9]
    · iexists _; iexact H9
    iexists _; isplitr; · ipureintro; exact harg10.read_unread _
    iexact H10

end Cert.KernelIdeal.Body

end
-- ==== Proof.KI.Data.lean ====
/-
  What the three buffers the body writes hold after each grid point, by recursion on the point t = 64 i + 8 j + k:
  the output window's staging buffer, the base accumulator (1024 × 512) and the cached projection (1024 × 16).
  At every point the base accumulator takes one more block of the contraction axis (from zero where k = 0); the cached
  projection takes one more block only while j = 0 (from zero at j = 0, k = 0) and is carried unchanged while j > 0; the
  output block is stored where k = 7 and is a placeholder elsewhere (there the window is idle and is not written back, so
  nothing reads it).  The invariant between two points names what the two scratch buffers hold; the proof data hand every
  input window back as its block.
-/
import proofs.«163484_j40355512714072_1_alg».proof.Proof.KI.RunA
import proofs.«163484_j40355512714072_1_alg».proof.Proof.KI.RunB
import proofs.«163484_j40355512714072_1_alg».proof.Proof.KI.RunC
import proofs.«163484_j40355512714072_1_alg».proof.Proof.KI.RunD
import proofs.«163484_j40355512714072_1_alg».proof.Proof.KI.RunE
import proofs.«163484_j40355512714072_1_alg».proof.Proof.KI.RunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

/-- The run of case A at point `t`, on the memrefs the point is called with. -/
abbrev RA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) :=
  runA (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w a

/-- Case A's stores into the base accumulator cover it (each is a store of the whole buffer). -/
theorem cover_accA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) (y : S1024x512.Idx) :
    ∃ pc ∈ (RA c t hk0 hjk0 hj0 hk7 x w a).1, y ∈ pc.1.set :=
  View.cover_of_tiledL (RA c t hk0 hjk0 hj0 hk7 x w a).1 S1024x512.size (by sl_kernel_rfl) y
/-- What they leave there, read back. -/
def accA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) : Vec F S1024x512 .f32 :=
  VAcc.read (Elt F) (VAcc.writes (Elt F) VAcc.junk (RA c t hk0 hjk0 hj0 hk7 x w a).1)

/-- Case A's stores into the cached projection cover it (each is a store of the whole buffer). -/
theorem cover_xrA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) (y : S1024x16.Idx) :
    ∃ pc ∈ (RA c t hk0 hjk0 hj0 hk7 x w a).2.1, y ∈ pc.1.set :=
  View.cover_of_tiledL (RA c t hk0 hjk0 hj0 hk7 x w a).2.1 S1024x16.size (by sl_kernel_rfl) y
/-- What they leave there, read back. -/
def xrA (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) : Vec F S1024x16 .f32 :=
  VXr.read (Elt F) (VXr.writes (Elt F) VXr.junk (RA c t hk0 hjk0 hj0 hk7 x w a).2.1)

/-- The run of case B at point `t`, on the memrefs the point is called with. -/
abbrev RB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) :=
  runB (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w a acc xr

/-- Case B's stores into the base accumulator cover it (each is a store of the whole buffer). -/
theorem cover_accB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) (y : S1024x512.Idx) :
    ∃ pc ∈ (RB c t hk0 hjk0 hj0 hk7 x w a acc xr).1, y ∈ pc.1.set :=
  View.cover_of_tiledL (RB c t hk0 hjk0 hj0 hk7 x w a acc xr).1 S1024x512.size (by sl_kernel_rfl) y
/-- What they leave there, read back. -/
def accB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) : Vec F S1024x512 .f32 :=
  VAcc.read (Elt F) (VAcc.writes (Elt F) VAcc.junk (RB c t hk0 hjk0 hj0 hk7 x w a acc xr).1)

/-- Case B's stores into the cached projection cover it (each is a store of the whole buffer). -/
theorem cover_xrB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) (y : S1024x16.Idx) :
    ∃ pc ∈ (RB c t hk0 hjk0 hj0 hk7 x w a acc xr).2.1, y ∈ pc.1.set :=
  View.cover_of_tiledL (RB c t hk0 hjk0 hj0 hk7 x w a acc xr).2.1 S1024x16.size (by sl_kernel_rfl) y
/-- What they leave there, read back. -/
def xrB (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) : Vec F S1024x16 .f32 :=
  VXr.read (Elt F) (VXr.writes (Elt F) VXr.junk (RB c t hk0 hjk0 hj0 hk7 x w a acc xr).2.1)

/-- The run of case C at point `t`, on the memrefs the point is called with. -/
abbrev RC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) :=
  runC (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w bias a b acc xr

/-- Case C's stores into the output block cover it (each is a store of the whole buffer). -/
theorem cover_outC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) (y : S1024x512.Idx) :
    ∃ pc ∈ (RC c t hk0 hjk0 hj0 hk7 x w bias a b acc xr).1, y ∈ pc.1.set :=
  View.cover_of_tiledL (RC c t hk0 hjk0 hj0 hk7 x w bias a b acc xr).1 S1024x512.size (by sl_kernel_rfl) y
/-- What they leave there, read back. -/
def outC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) : Vec F S1024x512 .f32 :=
  VO.read (Elt F) (VO.writes (Elt F) VO.junk (RC c t hk0 hjk0 hj0 hk7 x w bias a b acc xr).1)

/-- Case C's stores into the base accumulator cover it (each is a store of the whole buffer). -/
theorem cover_accC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) (y : S1024x512.Idx) :
    ∃ pc ∈ (RC c t hk0 hjk0 hj0 hk7 x w bias a b acc xr).2.1, y ∈ pc.1.set :=
  View.cover_of_tiledL (RC c t hk0 hjk0 hj0 hk7 x w bias a b acc xr).2.1 S1024x512.size (by sl_kernel_rfl) y
/-- What they leave there, read back. -/
def accC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) : Vec F S1024x512 .f32 :=
  VAcc.read (Elt F) (VAcc.writes (Elt F) VAcc.junk (RC c t hk0 hjk0 hj0 hk7 x w bias a b acc xr).2.1)

/-- Case C's stores into the cached projection cover it (each is a store of the whole buffer). -/
theorem cover_xrC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) (y : S1024x16.Idx) :
    ∃ pc ∈ (RC c t hk0 hjk0 hj0 hk7 x w bias a b acc xr).2.2.1, y ∈ pc.1.set :=
  View.cover_of_tiledL (RC c t hk0 hjk0 hj0 hk7 x w bias a b acc xr).2.2.1 S1024x16.size (by sl_kernel_rfl) y
/-- What they leave there, read back. -/
def xrC (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) : Vec F S1024x16 .f32 :=
  VXr.read (Elt F) (VXr.writes (Elt F) VXr.junk (RC c t hk0 hjk0 hj0 hk7 x w bias a b acc xr).2.2.1)

/-- The run of case D at point `t`, on the memrefs the point is called with. -/
abbrev RD (c : Dev nD) (t : Fin cfg0.N) (hk0 : condK0 (grid0.coords t)) (hjk0 : ¬condJK0 (grid0.coords t)) (hj0 : ¬condJ0 (grid0.coords t)) (hk7 : ¬condK7 (grid0.coords t)) (x : Vec F S1024x512 .f32) (w : Vec F S512x512 .f32) :=
  runD (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w

/-- Case D's stores into the base accumulator cover it (each is a store of the whole buffer). -/
theorem cover_accD (c : Dev nD) (t : Fin cfg0.N) (hk0 : condK0 (grid0.coords t)) (hjk0 : ¬condJK0 (grid0.coords t)) (hj0 : ¬condJ0 (grid0.coords t)) (hk7 : ¬condK7 (grid0.coords t)) (x : Vec F S1024x512 .f32) (w : Vec F S512x512 .f32) (y : S1024x512.Idx) :
    ∃ pc ∈ (RD c t hk0 hjk0 hj0 hk7 x w).1, y ∈ pc.1.set :=
  View.cover_of_tiledL (RD c t hk0 hjk0 hj0 hk7 x w).1 S1024x512.size (by sl_kernel_rfl) y
/-- What they leave there, read back. -/
def accD (c : Dev nD) (t : Fin cfg0.N) (hk0 : condK0 (grid0.coords t)) (hjk0 : ¬condJK0 (grid0.coords t)) (hj0 : ¬condJ0 (grid0.coords t)) (hk7 : ¬condK7 (grid0.coords t)) (x : Vec F S1024x512 .f32) (w : Vec F S512x512 .f32) : Vec F S1024x512 .f32 :=
  VAcc.read (Elt F) (VAcc.writes (Elt F) VAcc.junk (RD c t hk0 hjk0 hj0 hk7 x w).1)

/-- The run of case E at point `t`, on the memrefs the point is called with. -/
abbrev RE (c : Dev nD) (t : Fin cfg0.N) (hk0 : ¬condK0 (grid0.coords t)) (hjk0 : ¬condJK0 (grid0.coords t)) (hj0 : ¬condJ0 (grid0.coords t)) (hk7 : ¬condK7 (grid0.coords t)) (x : Vec F S1024x512 .f32) (w : Vec F S512x512 .f32) (acc : Vec F S1024x512 .f32) :=
  runE (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w acc

/-- Case E's stores into the base accumulator cover it (each is a store of the whole buffer). -/
theorem cover_accE (c : Dev nD) (t : Fin cfg0.N) (hk0 : ¬condK0 (grid0.coords t)) (hjk0 : ¬condJK0 (grid0.coords t)) (hj0 : ¬condJ0 (grid0.coords t)) (hk7 : ¬condK7 (grid0.coords t)) (x : Vec F S1024x512 .f32) (w : Vec F S512x512 .f32) (acc : Vec F S1024x512 .f32) (y : S1024x512.Idx) :
    ∃ pc ∈ (RE c t hk0 hjk0 hj0 hk7 x w acc).1, y ∈ pc.1.set :=
  View.cover_of_tiledL (RE c t hk0 hjk0 hj0 hk7 x w acc).1 S1024x512.size (by sl_kernel_rfl) y
/-- What they leave there, read back. -/
def accE (c : Dev nD) (t : Fin cfg0.N) (hk0 : ¬condK0 (grid0.coords t)) (hjk0 : ¬condJK0 (grid0.coords t)) (hj0 : ¬condJ0 (grid0.coords t)) (hk7 : ¬condK7 (grid0.coords t)) (x : Vec F S1024x512 .f32) (w : Vec F S512x512 .f32) (acc : Vec F S1024x512 .f32) : Vec F S1024x512 .f32 :=
  VAcc.read (Elt F) (VAcc.writes (Elt F) VAcc.junk (RE c t hk0 hjk0 hj0 hk7 x w acc).1)

/-- The run of case F at point `t`, on the memrefs the point is called with. -/
abbrev RF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) :=
  runF (F := F) c (grid0.coords t) (ms0 t) (hs0 t) (ms1 t) (hs1 t) (ms2 t) (hs2 t) (ms3 t) (hs3 t) (ms4 t) (hs4 t) (ms5 t) (hs5 t) accM (Memref.isWhole_whole _) xrM (Memref.isWhole_whole _) hk0 hjk0 hj0 hk7 x w bias b acc xr

/-- Case F's stores into the output block cover it (each is a store of the whole buffer). -/
theorem cover_outF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) (y : S1024x512.Idx) :
    ∃ pc ∈ (RF c t hk0 hjk0 hj0 hk7 x w bias b acc xr).1, y ∈ pc.1.set :=
  View.cover_of_tiledL (RF c t hk0 hjk0 hj0 hk7 x w bias b acc xr).1 S1024x512.size (by sl_kernel_rfl) y
/-- What they leave there, read back. -/
def outF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) : Vec F S1024x512 .f32 :=
  VO.read (Elt F) (VO.writes (Elt F) VO.junk (RF c t hk0 hjk0 hj0 hk7 x w bias b acc xr).1)

/-- Case F's stores into the base accumulator cover it (each is a store of the whole buffer). -/
theorem cover_accF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) (y : S1024x512.Idx) :
    ∃ pc ∈ (RF c t hk0 hjk0 hj0 hk7 x w bias b acc xr).2.1, y ∈ pc.1.set :=
  View.cover_of_tiledL (RF c t hk0 hjk0 hj0 hk7 x w bias b acc xr).2.1 S1024x512.size (by sl_kernel_rfl) y
/-- What they leave there, read back. -/
def accF (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) : Vec F S1024x512 .f32 :=
  VAcc.read (Elt F) (VAcc.writes (Elt F) VAcc.junk (RF c t hk0 hjk0 hj0 hk7 x w bias b acc xr).2.1)

/-! ## Point by point -/

/-- What point `t` leaves in (output buffer, base accumulator, cached projection), given what the point before left in
    the two scratch buffers (`prev`): the case is read off `t` (j = 0 iff t mod 64 < 8; k = t mod 8). -/
def stepAt (c : Dev nD) (t : Fin cfg0.N) (prev : Vec F S1024x512 .f32 × Vec F S1024x16 .f32) :
    Vec F S1024x512 .f32 × Vec F S1024x512 .f32 × Vec F S1024x16 .f32 :=
  if hj : t.val % 64 < 8 then
    if h0 : t.val % 8 = 0 then
      ((VO.read (Elt F) VO.junk), accA c t ((hcondK0 t).mpr h0) ((hcondJK0 t).mpr (by omega)) ((hcondJ0 t).mpr hj) (fun h => by have := (hcondK7 t).mp h; omega) (iblk m c 0 t) (iblk m c 1 t) (iblk m c 3 t), xrA c t ((hcondK0 t).mpr h0) ((hcondJK0 t).mpr (by omega)) ((hcondJ0 t).mpr hj) (fun h => by have := (hcondK7 t).mp h; omega) (iblk m c 0 t) (iblk m c 1 t) (iblk m c 3 t))
    else if h7 : t.val % 8 = 7 then
      (outC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, accC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, xrC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2)
    else
      ((VO.read (Elt F) VO.junk), accB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2, xrB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2)
  else
    if h0 : t.val % 8 = 0 then
      ((VO.read (Elt F) VO.junk), accD c t ((hcondK0 t).mpr h0) (fun h => hj (by have := (hcondJK0 t).mp h; omega)) (fun h => hj ((hcondJ0 t).mp h)) (fun h => by have := (hcondK7 t).mp h; omega) (iblk m c 0 t) (iblk m c 1 t), prev.2)
    else if h7 : t.val % 8 = 7 then
      (outF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, accF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, prev.2)
    else
      ((VO.read (Elt F) VO.junk), accE c t (fun h => h0 ((hcondK0 t).mp h)) (fun h => hj (by have := (hcondJK0 t).mp h; omega)) (fun h => hj ((hcondJ0 t).mp h)) (fun h => h7 ((hcondK7 t).mp h)) (iblk m c 0 t) (iblk m c 1 t) prev.1, prev.2)

/-- What the scratch buffers hold before anything was stored: nothing the run depends on. -/
def junkPair : Vec F S1024x512 .f32 × Vec F S1024x16 .f32 := (VAcc.read (Elt F) VAcc.junk, VXr.read (Elt F) VXr.junk)

/-- The three buffers after point `n`. -/
def stAt (c : Dev nD) : (n : ℕ) → n < cfg0.N → Vec F S1024x512 .f32 × Vec F S1024x512 .f32 × Vec F S1024x16 .f32
  | 0, hn => stepAt m c ⟨0, hn⟩ junkPair
  | n + 1, hn => stepAt m c ⟨n + 1, hn⟩ (stAt c n (Nat.lt_of_succ_lt hn)).2

/-- What the point before `t` left in the two scratch buffers. -/
def prevAt (c : Dev nD) (t : Fin cfg0.N) : Vec F S1024x512 .f32 × Vec F S1024x16 .f32 :=
  if h : t.val = 0 then junkPair else (stAt m c (t.val - 1) (Nat.lt_of_le_of_lt (Nat.sub_le _ _) t.isLt)).2

theorem stAt_eq (c : Dev nD) (t : Fin cfg0.N) : stAt m c t.val t.isLt = stepAt m c t (prevAt m c t) := by
  obtain ⟨n, hn⟩ := t
  cases n with
  | zero => unfold prevAt; rw [dif_pos rfl]; rfl
  | succ n => unfold prevAt; rw [dif_neg (Nat.succ_ne_zero n)]; rfl

theorem prevAt_pos (c : Dev nD) (t : Fin cfg0.N) (hz : t.val ≠ 0) :
    prevAt m c t = (stAt m c (t.val - 1) (Nat.lt_of_le_of_lt (Nat.sub_le _ _) t.isLt)).2 := by
  unfold prevAt; rw [dif_neg hz]

/-! ### The six cases of `stepAt` -/

theorem stepAt_A (c : Dev nD) (t : Fin cfg0.N) (prev) (hj : t.val % 64 < 8) (h0 : t.val % 8 = 0) :
    stepAt m c t prev = ((VO.read (Elt F) VO.junk), accA c t ((hcondK0 t).mpr h0) ((hcondJK0 t).mpr (by omega)) ((hcondJ0 t).mpr hj) (fun h => by have := (hcondK7 t).mp h; omega) (iblk m c 0 t) (iblk m c 1 t) (iblk m c 3 t), xrA c t ((hcondK0 t).mpr h0) ((hcondJK0 t).mpr (by omega)) ((hcondJ0 t).mpr hj) (fun h => by have := (hcondK7 t).mp h; omega) (iblk m c 0 t) (iblk m c 1 t) (iblk m c 3 t)) := by
  unfold stepAt; rw [dif_pos hj, dif_pos h0]
theorem stepAt_B (c : Dev nD) (t : Fin cfg0.N) (prev) (hj : t.val % 64 < 8) (h0 : ¬t.val % 8 = 0) (h7 : ¬t.val % 8 = 7) :
    stepAt m c t prev = ((VO.read (Elt F) VO.junk), accB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2, xrB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) prev.1 prev.2) := by
  unfold stepAt; rw [dif_pos hj, dif_neg h0, dif_neg h7]
theorem stepAt_C (c : Dev nD) (t : Fin cfg0.N) (prev) (hj : t.val % 64 < 8) (h0 : ¬t.val % 8 = 0) (h7 : t.val % 8 = 7) :
    stepAt m c t prev = (outC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, accC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2, xrC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) prev.1 prev.2) := by
  unfold stepAt; rw [dif_pos hj, dif_neg h0, dif_pos h7]
theorem stepAt_D (c : Dev nD) (t : Fin cfg0.N) (prev) (hj : ¬t.val % 64 < 8) (h0 : t.val % 8 = 0) :
    stepAt m c t prev = ((VO.read (Elt F) VO.junk), accD c t ((hcondK0 t).mpr h0) (fun h => hj (by have := (hcondJK0 t).mp h; omega)) (fun h => hj ((hcondJ0 t).mp h)) (fun h => by have := (hcondK7 t).mp h; omega) (iblk m c 0 t) (iblk m c 1 t), prev.2) := by
  unfold stepAt; rw [dif_neg hj, dif_pos h0]
theorem stepAt_E (c : Dev nD) (t : Fin cfg0.N) (prev) (hj : ¬t.val % 64 < 8) (h0 : ¬t.val % 8 = 0) (h7 : ¬t.val % 8 = 7) :
    stepAt m c t prev = ((VO.read (Elt F) VO.junk), accE c t (fun h => h0 ((hcondK0 t).mp h)) (fun h => hj (by have := (hcondJK0 t).mp h; omega)) (fun h => hj ((hcondJ0 t).mp h)) (fun h => h7 ((hcondK7 t).mp h)) (iblk m c 0 t) (iblk m c 1 t) prev.1, prev.2) := by
  unfold stepAt; rw [dif_neg hj, dif_neg h0, dif_neg h7]
theorem stepAt_F (c : Dev nD) (t : Fin cfg0.N) (prev) (hj : ¬t.val % 64 < 8) (h0 : ¬t.val % 8 = 0) (h7 : t.val % 8 = 7) :
    stepAt m c t prev = (outF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, accF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) prev.1 prev.2, prev.2) := by
  unfold stepAt; rw [dif_neg hj, dif_neg h0, dif_pos h7]

/-! ## The invariant between two points -/

/-- Before the first point the scratch buffers hold anything; before point `n + 1` they hold what point `n` left. -/
def PhiS (c : Dev nD) : (n : ℕ) → n ≤ cfg0.N → sProp 𝕄
  | 0, _ => Pipeline.ΦA spec0 c
  | n + 1, hn => iprop(iprop(owns (c : Thread nD τ) accM fullShare ((stAt m c n hn).2.1) ∗ owns (c : Thread nD τ) xrM fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stAt m c n hn).2.1) ∗ owns (c : Thread nD τ) xrM fullShare ((stAt m c n hn).2.2)) ∗ (∃ r, prngReg c r)) := rfl
theorem PhiS_pos (c : Dev nD) (n : ℕ) (h : n ≤ cfg0.N) (hz : n ≠ 0) :
    PhiS m c n h = iprop(iprop(owns (c : Thread nD τ) accM fullShare ((stAt m c (n - 1) (by omega)).2.1) ∗ owns (c : Thread nD τ) xrM fullShare ((stAt m c (n - 1) (by omega)).2.2)) ∗ (∃ r, prngReg c r)) := by
  cases n with
  | zero => exact absurd rfl hz
  | succ n => rfl

/-! ## The proof data -/

/-- The arrays as the region finds them; after the body at point `t` each input's buffer at its block and the output's
    at `stAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation's two sides, the windows one by one -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window is live at every point: the body hands its buffer back at its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
/-- The output window where k = 7: handed back at what the point stored. -/
theorem leaves5_live (c : Dev nD) (t : Fin cfg0.N) (h : condK7 (grid0.coords t)) :
    (dats m 0 c).leavesExact 5 t = owns (c : Thread nD τ) (ms5 t) fullShare ((stAt m c t.val t.isLt).1) := by
  unfold Dat.leavesExact; rw [live5 t h, after5]
/-- Elsewhere: handed back as found. -/
theorem leaves5_idle (c : Dev nD) (t : Fin cfg0.N) (h : ¬condK7 (grid0.coords t)) :
    (dats m 0 c).leavesExact 5 t = iprop(∃ d, owns (c : Thread nD τ) (ms5 t) fullShare ((dats m 0 c).before 5 t d)) :=
  Dat.leavesExact_idle (dats m 0 c) 5 t (idle5 t h) (noFlush5 t h)

end Cert.KernelIdeal.Body

end
-- ==== Proof.KI.ObA.lean ====
/-
  The body's specification at a point of the case j = 0, k = 0: both scratch buffers are zeroed first, so what they held (anything before the very first point, the
  previous row block's leftovers later) does not matter.
  The invariant hands the body the two scratch buffers, the case's run applies, and the invariant takes them back at this
  point's contents; every input window is handed back at its block, the core owes nothing throughout.
-/
import proofs.«163484_j40355512714072_1_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_A (c : Dev nD) (t : Fin cfg0.N) (hj : t.val % 64 < 8) (h0 : t.val % 8 = 0) :
    bodyPre m c t ⊢ wp frame (wpE (defs₀ (F := F)) Variants.none c none) Set.univ (bodyAt0 t) (fun _ => bodyPost m c t) := by
  have hk7 : ¬condK7 (grid0.coords t) := fun h => by have := (hcondK7 t).mp h; omega
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, stepAt_A m c t _ hj h0]
  unfold accA xrA; dsimp only
  by_cases hz : t.val = 0
  · rw [PhiS_castSucc m c t, PhiS_zero m c _ _ hz, PhiA_eq]
    iintro ⟨⟨⟨HAcc, HXr⟩, Hg⟩, Ho, ⟨%d0, H0⟩, ⟨%d1, H1⟩, ⟨%d2, H2⟩, ⟨%d3, H3⟩, ⟨%d4, H4⟩, H5⟩
    iapply ((RA c t ((hcondK0 t).mpr h0) ((hcondJK0 t).mpr (by omega)) ((hcondJ0 t).mpr hj) (fun h => by have := (hcondK7 t).mp h; omega) (iblk m c 0 t) (iblk m c 1 t) (iblk m c 3 t)).2.2 Set.univ _)
    isplitl [H0]; · iexact H0
    isplitl [H1]; · iexact H1
    isplitl [H3]; · iexact H3
    isplitl [HAcc]; · iexact HAcc
    isplitl [HXr]; · iexact HXr
    iintro ⟨H0, H1, H3, ⟨%e9, HAcc⟩, ⟨%e10, HXr⟩⟩
    isplitl [HAcc HXr Hg]
    · isplitl [HAcc HXr]
      · isplitl [HAcc]
        · unfold owns; iexists _; isplitr
          swap; · iexact HAcc
          ipureintro; exact View.read_writes_of_cover _ _ _ _ _ (cover_accA c t ((hcondK0 t).mpr h0) ((hcondJK0 t).mpr (by omega)) ((hcondJ0 t).mpr hj) (fun h => by have := (hcondK7 t).mp h; omega) (iblk m c 0 t) (iblk m c 1 t) (iblk m c 3 t))
        · unfold owns; iexists _; isplitr
          swap; · iexact HXr
          ipureintro; exact View.read_writes_of_cover _ _ _ _ _ (cover_xrA c t ((hcondK0 t).mpr h0) ((hcondJK0 t).mpr (by omega)) ((hcondJ0 t).mpr hj) (fun h => by have := (hcondK7 t).mp h; omega) (iblk m c 0 t) (iblk m c 1 t) (iblk m c 3 t))
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m c t, PhiS_pos m c _ _ hz]
    iintro ⟨⟨⟨HAcc, HXr⟩, Hg⟩, Ho, ⟨%d0, H0⟩, ⟨%d1, H1⟩, ⟨%d2, H2⟩, ⟨%d3, H3⟩, ⟨%d4, H4⟩, H5⟩
    iapply ((RA c t ((hcondK0 t).mpr h0) ((hcondJK0 t).mpr (by omega)) ((hcondJ0 t).mpr hj) (fun h => by have := (hcondK7 t).mp h; omega) (iblk m c 0 t) (iblk m c 1 t) (iblk m c 3 t)).2.2 Set.univ _)
    isplitl [H0]; · iexact H0
    isplitl [H1]; · iexact H1
    isplitl [H3]; · iexact H3
    isplitl [HAcc]; · iexists _; iexact HAcc
    isplitl [HXr]; · iexists _; iexact HXr
    iintro ⟨H0, H1, H3, ⟨%e9, HAcc⟩, ⟨%e10, HXr⟩⟩
    isplitl [HAcc HXr Hg]
    · isplitl [HAcc HXr]
      · isplitl [HAcc]
        · unfold owns; iexists _; isplitr
          swap; · iexact HAcc
          ipureintro; exact View.read_writes_of_cover _ _ _ _ _ (cover_accA c t ((hcondK0 t).mpr h0) ((hcondJK0 t).mpr (by omega)) ((hcondJ0 t).mpr hj) (fun h => by have := (hcondK7 t).mp h; omega) (iblk m c 0 t) (iblk m c 1 t) (iblk m c 3 t))
        · unfold owns; iexists _; isplitr
          swap; · iexact HXr
          ipureintro; exact View.read_writes_of_cover _ _ _ _ _ (cover_xrA c t ((hcondK0 t).mpr h0) ((hcondJK0 t).mpr (by omega)) ((hcondJ0 t).mpr hj) (fun h => by have := (hcondK7 t).mp h; omega) (iblk m c 0 t) (iblk m c 1 t) (iblk m c 3 t))
      iexact Hg
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Body

end
-- ==== Proof.KI.ObB.lean ====
/-
  The body's specification at a point of the case j = 0, 0 < k < 7: both scratch buffers are taken at what the point before left and handed back with one more block added.
  The invariant hands the body the two scratch buffers, the case's run applies, and the invariant takes them back at this
  point's contents; every input window is handed back at its block, the core owes nothing throughout.
-/
import proofs.«163484_j40355512714072_1_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_B (c : Dev nD) (t : Fin cfg0.N) (hj : t.val % 64 < 8) (h0 : ¬t.val % 8 = 0) (h7 : ¬t.val % 8 = 7) :
    bodyPre m c t ⊢ wp frame (wpE (defs₀ (F := F)) Variants.none c none) Set.univ (bodyAt0 t) (fun _ => bodyPost m c t) := by
  have hz : t.val ≠ 0 := by omega
  have hk7 : ¬condK7 (grid0.coords t) := fun h => h7 ((hcondK7 t).mp h)
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, prevAt_pos m c t hz, stepAt_B m c t _ hj h0 h7]
  unfold accB xrB; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, H5⟩
  iapply ((RB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) ((stAt m c (t.val - 1) (Nat.lt_of_le_of_lt (Nat.sub_le _ _) t.isLt)).2.1) ((stAt m c (t.val - 1) (Nat.lt_of_le_of_lt (Nat.sub_le _ _) t.isLt)).2.2)).2.2 Set.univ _)
  isplitl [H0]; · iexact H0
  isplitl [H1]; · iexact H1
  isplitl [H3]; · iexact H3
  isplitl [HAcc]; · iexact HAcc
  isplitl [HXr]; · iexact HXr
  iintro ⟨H0, H1, H3, ⟨%e9, HAcc⟩, ⟨%e10, HXr⟩⟩
  isplitl [HAcc HXr Hg]
  · isplitl [HAcc HXr]
    · isplitl [HAcc]
      · unfold owns; iexists _; isplitr
        swap; · iexact HAcc
        ipureintro; exact View.read_writes_of_cover _ _ _ _ _ (cover_accB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) ((stAt m c (t.val - 1) (Nat.lt_of_le_of_lt (Nat.sub_le _ _) t.isLt)).2.1) ((stAt m c (t.val - 1) (Nat.lt_of_le_of_lt (Nat.sub_le _ _) t.isLt)).2.2))
      · unfold owns; iexists _; isplitr
        swap; · iexact HXr
        ipureintro; exact View.read_writes_of_cover _ _ _ _ _ (cover_xrB c t (fun h => h0 ((hcondK0 t).mp h)) (fun h => h0 (by have := (hcondJK0 t).mp h; omega)) ((hcondJ0 t).mpr hj) (fun h => h7 ((hcondK7 t).mp h)) (iblk m c 0 t) (iblk m c 1 t) (iblk m c 3 t) ((stAt m c (t.val - 1) (Nat.lt_of_le_of_lt (Nat.sub_le _ _) t.isLt)).2.1) ((stAt m c (t.val - 1) (Nat.lt_of_le_of_lt (Nat.sub_le _ _) t.isLt)).2.2))
    iexact Hg
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Body

end
-- ==== Proof.KI.ObC.lean ====
/-
  The body's specification at a point of the case j = 0, k = 7: both scratch buffers take their last block and the output block is stored over whatever its buffer held.
  The invariant hands the body the two scratch buffers, the case's run applies, and the invariant takes them back at this
  point's contents; every input window is handed back at its block, the core owes nothing throughout.
-/
import proofs.«163484_j40355512714072_1_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_C (c : Dev nD) (t : Fin cfg0.N) (hj : t.val % 64 < 8) (h0 : ¬t.val % 8 = 0) (h7 : t.val % 8 = 7) :
    bodyPre m c t ⊢ wp frame (wpE (defs₀ (F := F)) Variants.none c none) Set.univ (bodyAt0 t) (fun _ => bodyPost m c t) := by
  have hz : t.val ≠ 0 := by omega
  have hk7 : condK7 (grid0.coords t) := (hcondK7 t).mpr h7
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_live m c t hk7]
  rw [stAt_eq m c t, prevAt_pos m c t hz, stepAt_C m c t _ hj h0 h7]
  unfold outC accC xrC; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, ⟨%d5, H5⟩⟩
  iapply ((RC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HAcc]; · iexact HAcc
  isplitl [HXr]; · iexact HXr
  iintro ⟨H0, H1, H2, H3, H4, ⟨%e8, H5⟩, ⟨%e9, HAcc⟩, ⟨%e10, HXr⟩⟩
  isplitl [HAcc HXr Hg]
  · isplitl [HAcc HXr]
    · isplitl [HAcc]
      · unfold owns; iexists _; isplitr
        swap; · iexact HAcc
        ipureintro; exact View.read_writes_of_cover _ _ _ _ _ (cover_accC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2))
      · unfold owns; iexists _; isplitr
        swap; · iexact HXr
        ipureintro; exact View.read_writes_of_cover _ _ _ _ _ (cover_xrC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2))
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover_outC c t (fun h => h0 ((hcondK0 t).mp h)) (fun h => h0 (by have := (hcondJK0 t).mp h; omega)) ((hcondJ0 t).mpr hj) ((hcondK7 t).mpr h7) (iblk m c 0 t) (iblk m c 1 t) (iblk m c 2 t) (iblk m c 3 t) (iblk m c 4 t) ((stAt m c (t.val - 1) (Nat.lt_of_le_of_lt (Nat.sub_le _ _) t.isLt)).2.1) ((stAt m c (t.val - 1) (Nat.lt_of_le_of_lt (Nat.sub_le _ _) t.isLt)).2.2))

end Cert.KernelIdeal.Body

end
-- ==== Proof.KI.ObD.lean ====
/-
  The body's specification at a point of the case j > 0, k = 0: the base accumulator restarts from zero; the cached projection passes through untouched.
  The invariant hands the body the two scratch buffers, the case's run applies, and the invariant takes them back at this
  point's contents; every input window is handed back at its block, the core owes nothing throughout.
-/
import proofs.«163484_j40355512714072_1_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_D (c : Dev nD) (t : Fin cfg0.N) (hj : ¬t.val % 64 < 8) (h0 : t.val % 8 = 0) :
    bodyPre m c t ⊢ wp frame (wpE (defs₀ (F := F)) Variants.none c none) Set.univ (bodyAt0 t) (fun _ => bodyPost m c t) := by
  have hz : t.val ≠ 0 := by omega
  have hk7 : ¬condK7 (grid0.coords t) := fun h => by have := (hcondK7 t).mp h; omega
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, prevAt_pos m c t hz, stepAt_D m c t _ hj h0]
  unfold accD; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, H5⟩
  iapply ((RD c t ((hcondK0 t).mpr h0) (fun h => hj (by have := (hcondJK0 t).mp h; omega)) (fun h => hj ((hcondJ0 t).mp h)) (fun h => by have := (hcondK7 t).mp h; omega) (iblk m c 0 t) (iblk m c 1 t)).2 Set.univ _)
  isplitl [H0]; · iexact H0
  isplitl [H1]; · iexact H1
  isplitl [HAcc]; · iexists _; iexact HAcc
  iintro ⟨H0, H1, ⟨%e9, HAcc⟩⟩
  isplitl [HAcc HXr Hg]
  · isplitl [HAcc HXr]
    · isplitl [HAcc]
      · unfold owns; iexists _; isplitr
        swap; · iexact HAcc
        ipureintro; exact View.read_writes_of_cover _ _ _ _ _ (cover_accD c t ((hcondK0 t).mpr h0) (fun h => hj (by have := (hcondJK0 t).mp h; omega)) (fun h => hj ((hcondJ0 t).mp h)) (fun h => by have := (hcondK7 t).mp h; omega) (iblk m c 0 t) (iblk m c 1 t))
      · iexact HXr
    iexact Hg
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Body

end
-- ==== Proof.KI.ObE.lean ====
/-
  The body's specification at a point of the case j > 0, 0 < k < 7: the base accumulator takes one more block; the cached projection passes through untouched.
  The invariant hands the body the two scratch buffers, the case's run applies, and the invariant takes them back at this
  point's contents; every input window is handed back at its block, the core owes nothing throughout.
-/
import proofs.«163484_j40355512714072_1_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_E (c : Dev nD) (t : Fin cfg0.N) (hj : ¬t.val % 64 < 8) (h0 : ¬t.val % 8 = 0) (h7 : ¬t.val % 8 = 7) :
    bodyPre m c t ⊢ wp frame (wpE (defs₀ (F := F)) Variants.none c none) Set.univ (bodyAt0 t) (fun _ => bodyPost m c t) := by
  have hz : t.val ≠ 0 := by omega
  have hk7 : ¬condK7 (grid0.coords t) := fun h => h7 ((hcondK7 t).mp h)
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_idle m c t hk7]
  rw [stAt_eq m c t, prevAt_pos m c t hz, stepAt_E m c t _ hj h0 h7]
  unfold accE; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, H5⟩
  iapply ((RE c t (fun h => h0 ((hcondK0 t).mp h)) (fun h => hj (by have := (hcondJK0 t).mp h; omega)) (fun h => hj ((hcondJ0 t).mp h)) (fun h => h7 ((hcondK7 t).mp h)) (iblk m c 0 t) (iblk m c 1 t) ((stAt m c (t.val - 1) (Nat.lt_of_le_of_lt (Nat.sub_le _ _) t.isLt)).2.1)).2 Set.univ _)
  isplitl [H0]; · iexact H0
  isplitl [H1]; · iexact H1
  isplitl [HAcc]; · iexact HAcc
  iintro ⟨H0, H1, ⟨%e9, HAcc⟩⟩
  isplitl [HAcc HXr Hg]
  · isplitl [HAcc HXr]
    · isplitl [HAcc]
      · unfold owns; iexists _; isplitr
        swap; · iexact HAcc
        ipureintro; exact View.read_writes_of_cover _ _ _ _ _ (cover_accE c t (fun h => h0 ((hcondK0 t).mp h)) (fun h => hj (by have := (hcondJK0 t).mp h; omega)) (fun h => hj ((hcondJ0 t).mp h)) (fun h => h7 ((hcondK7 t).mp h)) (iblk m c 0 t) (iblk m c 1 t) ((stAt m c (t.val - 1) (Nat.lt_of_le_of_lt (Nat.sub_le _ _) t.isLt)).2.1))
      · iexact HXr
    iexact Hg
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Body

end
-- ==== Proof.KI.ObF.lean ====
/-
  The body's specification at a point of the case j > 0, k = 7: the base accumulator takes its last block, the cached projection is read, and the output block is stored.
  The invariant hands the body the two scratch buffers, the case's run applies, and the invariant takes them back at this
  point's contents; every input window is handed back at its block, the core owes nothing throughout.
-/
import proofs.«163484_j40355512714072_1_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_F (c : Dev nD) (t : Fin cfg0.N) (hj : ¬t.val % 64 < 8) (h0 : ¬t.val % 8 = 0) (h7 : t.val % 8 = 7) :
    bodyPre m c t ⊢ wp frame (wpE (defs₀ (F := F)) Variants.none c none) Set.univ (bodyAt0 t) (fun _ => bodyPost m c t) := by
  have hz : t.val ≠ 0 := by omega
  have hk7 : condK7 (grid0.coords t) := (hcondK7 t).mpr h7
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5_live m c t hk7]
  rw [stAt_eq m c t, prevAt_pos m c t hz, stepAt_F m c t _ hj h0 h7]
  unfold outF accF; dsimp only
  rw [PhiS_castSucc m c t, PhiS_pos m c _ _ hz]
  iintro ⟨⟨⟨HAcc, HXr⟩, Hg⟩, Ho, ⟨%d0, H0⟩, ⟨%d1, H1⟩, ⟨%d2, H2⟩, ⟨%d3, H3⟩, ⟨%d4, H4⟩, ⟨%d5, H5⟩⟩
  iapply ((RF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) ((stAt m c (t.val - 1) (Nat.lt_of_le_of_lt (Nat.sub_le _ _) t.isLt)).2.1) ((stAt m c (t.val - 1) (Nat.lt_of_le_of_lt (Nat.sub_le _ _) t.isLt)).2.2)).2.2 Set.univ _)
  isplitl [H0]; · iexact H0
  isplitl [H1]; · iexact H1
  isplitl [H2]; · iexact H2
  isplitl [H4]; · iexact H4
  isplitl [H5]; · iexists _; iexact H5
  isplitl [HAcc]; · iexact HAcc
  isplitl [HXr]; · iexact HXr
  iintro ⟨H0, H1, H2, H4, ⟨%e8, H5⟩, ⟨%e9, HAcc⟩, HXr⟩
  isplitl [HAcc HXr Hg]
  · isplitl [HAcc HXr]
    · isplitl [HAcc]
      · unfold owns; iexists _; isplitr
        swap; · iexact HAcc
        ipureintro; exact View.read_writes_of_cover _ _ _ _ _ (cover_accF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) ((stAt m c (t.val - 1) (Nat.lt_of_le_of_lt (Nat.sub_le _ _) t.isLt)).2.1) ((stAt m c (t.val - 1) (Nat.lt_of_le_of_lt (Nat.sub_le _ _) t.isLt)).2.2))
      · iexact HXr
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover_outF c t (fun h => h0 ((hcondK0 t).mp h)) (fun h => hj (by have := (hcondJK0 t).mp h; omega)) (fun h => hj ((hcondJ0 t).mp h)) ((hcondK7 t).mpr h7) (iblk m c 0 t) (iblk m c 1 t) (iblk m c 2 t) (iblk m c 4 t) ((stAt m c (t.val - 1) (Nat.lt_of_le_of_lt (Nat.sub_le _ _) t.isLt)).2.1) ((stAt m c (t.val - 1) (Nat.lt_of_le_of_lt (Nat.sub_le _ _) t.isLt)).2.2))

end Cert.KernelIdeal.Body

end
-- ==== Proof.KI.Oblig.lean ====
/-
  The frame of the program: the body's specification at every grid point (the six cases, told apart by t mod 64 and t mod 8),
  the two ends of the invariant (before the first point the scratch buffers hold anything; after the last their contents
  are forgotten), and the launch: every weakly fair execution of the whole program terminates, nothing faults, each
  window's array ends at what the write-backs of the proof data leave there, and the argument arrays end unchanged.
-/
import proofs.«163484_j40355512714072_1_alg».proof.Proof.KI.ObA
import proofs.«163484_j40355512714072_1_alg».proof.Proof.KI.ObB
import proofs.«163484_j40355512714072_1_alg».proof.Proof.KI.ObC
import proofs.«163484_j40355512714072_1_alg».proof.Proof.KI.ObD
import proofs.«163484_j40355512714072_1_alg».proof.Proof.KI.ObE
import proofs.«163484_j40355512714072_1_alg».proof.Proof.KI.ObF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: j = 0 iff t mod 64 < 8, and k = t mod 8 picks the first, a middle or the last block. -/
theorem sound_body (c : Dev nD) (t : Fin cfg0.N) :
    bodyPre m c t ⊢ wp frame (wpE (defs₀ (F := F)) Variants.none c none) Set.univ (bodyAt0 t) (fun _ => bodyPost m c t) := by
  by_cases hj : t.val % 64 < 8
  · by_cases h0 : t.val % 8 = 0
    · exact sound_A m c t hj h0
    · by_cases h7 : t.val % 8 = 7
      · exact sound_C m c t hj h0 h7
      · exact sound_B m c t hj h0 h7
  · by_cases h0 : t.val % 8 = 0
    · exact sound_D m c t hj h0
    · by_cases h7 : t.val % 8 = 7
      · exact sound_F m c t hj h0 h7
      · exact sound_E m c t hj h0 h7

/-- The body obligation of the pipeline, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point but the first the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HAcc, HXr⟩, Hg⟩
  isplitl [HAcc HXr]
  · isplitl [HAcc]
    · iexists _; iexact HAcc
    · iexists _; iexact HXr
  iexact Hg

theorem hout (c : Dev nD) : (dats m 0 c).Φ (Fin.last cfg0.N) ⊢ Pipeline.ΦA spec0 c :=
  Phi_out m c _ (by rw [Fin.val_last]; have : cfg0.N = 1024 := N_0; omega)

set_option backward.isDefEq.respectTransparency.types false in
/-- Every weakly fair execution of the program terminates, and in every final state each window's array holds what the
    proof data's write-backs leave and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its five argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  What both programs compute, as one function of the five argument arrays, index by index on the extended reals:
  a dense layer with a rank-16 correction,
      out[b, s, o] = (Σ_k x[b,s,k] · w[o,k] + bias[o]) + (Σ_ρ (Σ_k x[b,s,k] · a[ρ,k]) · b[o,ρ]) · 2,
  the factor 2 kept as the float word both programs print (it is never evaluated: the same word stands on both sides).
  Also the partial sums a blocked evaluation of the two inner products goes through: the contraction axis of length
  4096 cut into 8 blocks of 512, summed block after block from zero.  Only the additive monoid laws of the extended
  reals are used (regrouping a finite sum); no distributivity, hence no finiteness.
-/
import Idealize.ShloMosaic.PureOps.Ideal
import Idealize.ShloMosaic.Lib.ValueIdx

noncomputable section

namespace LoraSpec

open Idealize.ShloMosaic Idealize.ShloMosaic.ValueIdx

abbrev SX : Shape := ⟨3, ![4, 4096, 4096]⟩
abbrev SW : Shape := ⟨2, ![4096, 4096]⟩
abbrev SBias : Shape := ⟨1, ![4096]⟩
abbrev SA : Shape := ⟨2, ![16, 4096]⟩
abbrev SB : Shape := ⟨2, ![4096, 16]⟩
/-- The activations as the kernel sees them: the two leading axes merged, row `r = 4096 · b + s`. -/
abbrev SX2 : Shape := ⟨2, ![16384, 4096]⟩

/-- The scale of the low-rank path, as the float word both programs print. -/
abbrev scale : EReal := Ideal.ofBits .f32 0x40000000#32

/-- The inner product of row `(b0, s)` of `x` with row `o` of a matrix `w` over the whole contraction axis. -/
def dotRow (x : SX.Idx → EReal) {n : Nat} (w : (⟨2, ![n, 4096]⟩ : Shape).Idx → EReal) (b0 : Fin 4) (s : Fin 4096) (o : Fin n) : EReal :=
  ∑ k : Fin 4096, x (ix3 b0 s k) * w (ix2 o k)

/-- The result, index by index. -/
def G (x : SX.Idx → EReal) (w : SW.Idx → EReal) (bias : SBias.Idx → EReal) (a : SA.Idx → EReal) (b : SB.Idx → EReal) :
    SX.Idx → EReal := fun i =>
  (dotRow x w (i 0) (i 1) (i 2) + bias (ix1 (i 2)))
    + (∑ ρ : Fin 16, dotRow x a (i 0) (i 1) ρ * b (ix2 (i 2) ρ)) * scale

/-- The inner product of a row of length 4096 cut into blocks of 512: the first `n` blocks, summed block after block
    from zero (`f k` is the k-th product along the contraction axis). -/
def blockSum (f : ℕ → EReal) : ℕ → EReal
  | 0 => 0
  | n + 1 => blockSum f n + ∑ kk : Fin 512, f (512 * n + kk.val)

theorem blockSum_zero (f : ℕ → EReal) : blockSum f 0 = 0 := rfl
theorem blockSum_succ (f : ℕ → EReal) (n : ℕ) : blockSum f (n + 1) = blockSum f n + ∑ kk : Fin 512, f (512 * n + kk.val) := rfl

end LoraSpec

end
-- ==== Proof.BlockAlgebra.lean ====
/-
  The blocked sum of Spec.lean is the whole sum: a sum over 4096 indices cut into 8 consecutive blocks of 512
  and added block after block from zero equals the sum over all 4096 indices.  Only the commutative-monoid laws
  of addition on the extended reals are used (splitting a range sum at a point); no distributivity, no subtraction.
-/
import proofs.«163484_j40355512714072_1_alg».proof.Proof.Spec
import Mathlib.Algebra.BigOperators.Group.Finset.Basic
import Mathlib.Algebra.BigOperators.Fin
import Mathlib.Data.Fintype.BigOperators
import Mathlib.Data.EReal.Basic

noncomputable section

namespace LoraSpec

open Finset

/-- The first `n` blocks together are the range sum over the first `512 * n` indices. -/
theorem blockSum_eq_sum_range (f : ℕ → EReal) (n : ℕ) :
    blockSum f n = ∑ k ∈ range (512 * n), f k := by
  induction n with
  | zero => rw [blockSum_zero, Nat.mul_zero, sum_range_zero]
  | succ n ih =>
    rw [blockSum_succ, ih, Nat.mul_succ, sum_range_add,
      Fin.sum_univ_eq_sum_range (fun kk => f (512 * n + kk)) 512]

/-- All eight blocks together are the sum over the whole contraction axis. -/
theorem blockSum_eight (f : ℕ → EReal) : blockSum f 8 = ∑ k : Fin 4096, f k.val := by
  rw [blockSum_eq_sum_range, Fin.sum_univ_eq_sum_range f 4096]

/-- The blocked sum only reads the first `512 * n` terms. -/
theorem blockSum_le (f g : ℕ → EReal) (n : ℕ) (h : ∀ k, k < 512 * n → f k = g k) :
    blockSum f n = blockSum g n := by
  rw [blockSum_eq_sum_range, blockSum_eq_sum_range]
  exact sum_congr rfl (fun k hk => h k (mem_range.mp hk))

end LoraSpec

end
-- ==== Proof.KI.ValDefs.lean ====
/-
  Names for the value argument at the ideal instance.  The arrays as the region finds them: the activations with their two
  leading axes merged (16384 × 4096), the weight (4096 × 4096), the bias as a row (1 × 4096), the two low-rank factors
  (16 × 4096 and 4096 × 16).  A grid point t = 64 i + 8 j + k works on rows 1024 i … 1024 i + 1023, columns
  512 j … 512 j + 511 and the block 512 k … 512 k + 511 of the contraction axis.  The result over the merged rows:
      out[r, o] = (Σ_κ x[r,κ] · w[o,κ] + bias[o]) + (Σ_ρ (Σ_κ x[r,κ] · a[ρ,κ]) · b[o,ρ]) · 2.
-/
import proofs.«163484_j40355512714072_1_alg».proof.Proof.KI.Data
import proofs.«163484_j40355512714072_1_alg».proof.Proof.Spec
import proofs.«163484_j40355512714072_1_alg».proof.Proof.BlockAlgebra
import Idealize.ShloMosaic.Lib.ValueIdx

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The arrays and the blocks, at their literal types -/

abbrev Xa (c : Dev nD) : Vec Ideal S16384x4096 .f32 := V m c main_v0
abbrev Wa (c : Dev nD) : Vec Ideal S4096x4096 .f32 := V m c main_arg1
abbrev Ra (c : Dev nD) : Vec Ideal S1x4096 .f32 := V m c main_v1
abbrev Aa (c : Dev nD) : Vec Ideal S16x4096 .f32 := V m c main_arg3
abbrev Ba (c : Dev nD) : Vec Ideal S4096x16 .f32 := V m c main_arg4

abbrev xB (c : Dev nD) (t : Fin cfg0.N) : Vec Ideal S1024x512 .f32 := iblk m c 0 t
abbrev wB (c : Dev nD) (t : Fin cfg0.N) : Vec Ideal S512x512 .f32 := iblk m c 1 t
abbrev rB (c : Dev nD) (t : Fin cfg0.N) : Vec Ideal S1x512 .f32 := iblk m c 2 t
abbrev aB (c : Dev nD) (t : Fin cfg0.N) : Vec Ideal S16x512 .f32 := iblk m c 3 t
abbrev bB (c : Dev nD) (t : Fin cfg0.N) : Vec Ideal S512x16 .f32 := iblk m c 4 t

/-! ## The coordinates a point works on -/

/-- Row `p` of point `t`'s row block. -/
def rowOf (t : Fin cfg0.N) (p : Fin 1024) : Fin 16384 :=
  ⟨1024 * (t.val / 64) + p.val, by have h := t.isLt; have hN : cfg0.N = 1024 := N_0; omega⟩
/-- Column `q` of its column block. -/
def colOf (t : Fin cfg0.N) (q : Fin 512) : Fin 4096 := ⟨512 * (t.val / 8 % 8) + q.val, by omega⟩
/-- Position `kk` of its block of the contraction axis. -/
def kOf (t : Fin cfg0.N) (kk : Fin 512) : Fin 4096 := ⟨512 * (t.val % 8) + kk.val, by omega⟩

/-! ## Products along the contraction axis, and the result over the merged rows -/

/-- A function on the contraction axis continued by zero past its end, so that partial sums block by block can be
    written over the natural numbers. -/
def extN (g : Fin 4096 → EReal) : ℕ → EReal := fun κ => if h : κ < 4096 then g ⟨κ, h⟩ else 0

theorem extN_val (g : Fin 4096 → EReal) (k : Fin 4096) : extN g k.val = g k := by
  unfold extN; rw [dif_pos k.isLt]

/-- All eight blocks make the whole inner product. -/
theorem blockSum_extN_eight (g : Fin 4096 → EReal) : LoraSpec.blockSum (extN g) 8 = ∑ k : Fin 4096, g k := by
  rw [LoraSpec.blockSum_eight]; exact Finset.sum_congr rfl (fun k _ => extN_val g k)

/-- Row `r` of the activations against row `o` of the weight, term by term. -/
def prodW (c : Dev nD) (r : Fin 16384) (o : Fin 4096) : Fin 4096 → EReal := fun κ => Xa m c (ix2 r κ) * Wa m c (ix2 o κ)
/-- Row `r` of the activations against row `ρ` of the first low-rank factor, term by term. -/
def prodA (c : Dev nD) (r : Fin 16384) (ρ : Fin 16) : Fin 4096 → EReal := fun κ => Xa m c (ix2 r κ) * Aa m c (ix2 ρ κ)

/-- The result over the merged rows, with the inner products as sums of eight blocks. -/
def G2 (c : Dev nD) : S16384x4096.Idx → EReal := fun i =>
  (LoraSpec.blockSum (extN (prodW m c (i 0) (i 1))) 8 + Ra m c (ix2 (0 : Fin 1) (i 1)))
    + (∑ ρ : Fin 16, LoraSpec.blockSum (extN (prodA m c (i 0) ρ)) 8 * Ba m c (ix2 (i 1) ρ)) * LoraSpec.scale

end Cert.KernelIdeal.Val

end
-- ==== Proof.KI.Pieces.lean ====
/-
  What each case's stores leave, as the body's arithmetic: every store a case makes covers its whole buffer, so the buffer
  ends at the last store's value, and a load after a store in the same point reads that store's value.  Hence the base
  accumulator always ends at (what it held, or zero where it was just reset) plus this block's product x·wᵀ; the cached
  projection, where it is written, likewise with x·aᵀ; and the output block, where it is stored, at the finished
  accumulator plus the bias row plus twice (projection · second factor).
-/
import proofs.«163484_j40355512714072_1_alg».proof.Proof.KI.Data
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Case A (j = 0, k = 0): the base accumulator is zeroed, read back and added to: zero plus this block's product. -/
theorem accA_eq (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) :
    accA c t hk0 hjk0 hj0 hk7 x w a = k0_pay3 x w (k0_pay1 (F := F)) := by
  unfold accA
  rw [View.read_writes_eq_canon _ _ _ (cover_accA c t hk0 hjk0 hj0 hk7 x w a)]
  unfold RA runA
  dsimp only
  sl_unfold_words
  rw [View.canon_cons_unit_zero (S := S1024x512) hz2, View.readCov_unit_zero (S := S1024x512) _ hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case A: the cached projection is zeroed, read back and added to: zero plus this block's projection. -/
theorem xrA_eq (c : Dev nD) (t : Fin cfg0.N) (hk0 : condK0 (grid0.coords t)) (hjk0 : condJK0 (grid0.coords t)) (hj0 : condJ0 (grid0.coords t)) (hk7 : ¬condK7 (grid0.coords t)) (x : Vec F S1024x512 .f32) (w : Vec F S512x512 .f32) (a : Vec F S16x512 .f32) :
    xrA c t hk0 hjk0 hj0 hk7 x w a = k0_pay5 x a (k0_pay4 (F := F)) := by
  unfold xrA
  rw [View.read_writes_eq_canon _ _ _ (cover_xrA c t hk0 hjk0 hj0 hk7 x w a)]
  unfold RA runA
  dsimp only
  sl_unfold_words
  rw [View.canon_cons_unit_zero (S := S1024x16) hz2, View.readCov_unit_zero (S := S1024x16) _ hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case B (j = 0, 0 < k < 7): the base accumulator takes this block's product. -/
theorem accB_eq (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) :
    accB c t hk0 hjk0 hj0 hk7 x w a acc xr = k0_pay3 x w acc := by
  unfold accB
  rw [View.read_writes_eq_canon _ _ _ (cover_accB c t hk0 hjk0 hj0 hk7 x w a acc xr)]
  unfold RB runB
  dsimp only
  sl_unfold_words
  rw [View.canon_unit_zero (S := S1024x512) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case B: the cached projection takes this block's projection. -/
theorem xrB_eq (c : Dev nD) (t : Fin cfg0.N) (hk0 : ¬condK0 (grid0.coords t)) (hjk0 : ¬condJK0 (grid0.coords t)) (hj0 : condJ0 (grid0.coords t)) (hk7 : ¬condK7 (grid0.coords t)) (x : Vec F S1024x512 .f32) (w : Vec F S512x512 .f32) (a : Vec F S16x512 .f32) (acc : Vec F S1024x512 .f32) (xr : Vec F S1024x16 .f32) :
    xrB c t hk0 hjk0 hj0 hk7 x w a acc xr = k0_pay5 x a xr := by
  unfold xrB
  rw [View.read_writes_eq_canon _ _ _ (cover_xrB c t hk0 hjk0 hj0 hk7 x w a acc xr)]
  unfold RB runB
  dsimp only
  sl_unfold_words
  rw [View.canon_unit_zero (S := S1024x16) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case C (j = 0, k = 7): the output block is the last term over the two scratch buffers as this point's own stores left them. -/
theorem outC_eq (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) :
    outC c t hk0 hjk0 hj0 hk7 x w bias a b acc xr = k0_pay6 b (k0_pay5 x a xr) (k0_pay3 x w acc) bias := by
  unfold outC
  rw [View.read_writes_eq_canon _ _ _ (cover_outC c t hk0 hjk0 hj0 hk7 x w bias a b acc xr)]
  unfold RC runC
  dsimp only
  sl_unfold_words
  rw [View.canon_unit_zero (S := S1024x512) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case C: the base accumulator takes this block's product. -/
theorem accC_eq (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) :
    accC c t hk0 hjk0 hj0 hk7 x w bias a b acc xr = k0_pay3 x w acc := by
  unfold accC
  rw [View.read_writes_eq_canon _ _ _ (cover_accC c t hk0 hjk0 hj0 hk7 x w bias a b acc xr)]
  unfold RC runC
  dsimp only
  sl_unfold_words
  rw [View.canon_unit_zero (S := S1024x512) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case C: the cached projection takes this block's projection. -/
theorem xrC_eq (c : Dev nD) (t : Fin cfg0.N) (hk0 : ¬condK0 (grid0.coords t)) (hjk0 : ¬condJK0 (grid0.coords t)) (hj0 : condJ0 (grid0.coords t)) (hk7 : condK7 (grid0.coords t)) (x : Vec F S1024x512 .f32) (w : Vec F S512x512 .f32) (bias : Vec F S1x512 .f32) (a : Vec F S16x512 .f32) (b : Vec F S512x16 .f32) (acc : Vec F S1024x512 .f32) (xr : Vec F S1024x16 .f32) :
    xrC c t hk0 hjk0 hj0 hk7 x w bias a b acc xr = k0_pay5 x a xr := by
  unfold xrC
  rw [View.read_writes_eq_canon _ _ _ (cover_xrC c t hk0 hjk0 hj0 hk7 x w bias a b acc xr)]
  unfold RC runC
  dsimp only
  sl_unfold_words
  rw [View.canon_unit_zero (S := S1024x16) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case D (j > 0, k = 0): the base accumulator is zeroed, read back and added to. -/
theorem accD_eq (c : Dev nD) (t : Fin cfg0.N) (hk0 : condK0 (grid0.coords t)) (hjk0 : ¬condJK0 (grid0.coords t)) (hj0 : ¬condJ0 (grid0.coords t)) (hk7 : ¬condK7 (grid0.coords t)) (x : Vec F S1024x512 .f32) (w : Vec F S512x512 .f32) :
    accD c t hk0 hjk0 hj0 hk7 x w = k0_pay3 x w (k0_pay1 (F := F)) := by
  unfold accD
  rw [View.read_writes_eq_canon _ _ _ (cover_accD c t hk0 hjk0 hj0 hk7 x w)]
  unfold RD runD
  dsimp only
  sl_unfold_words
  rw [View.canon_cons_unit_zero (S := S1024x512) hz2, View.readCov_unit_zero (S := S1024x512) _ hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case E (j > 0, 0 < k < 7): the base accumulator takes this block's product. -/
theorem accE_eq (c : Dev nD) (t : Fin cfg0.N) (hk0 : ¬condK0 (grid0.coords t)) (hjk0 : ¬condJK0 (grid0.coords t)) (hj0 : ¬condJ0 (grid0.coords t)) (hk7 : ¬condK7 (grid0.coords t)) (x : Vec F S1024x512 .f32) (w : Vec F S512x512 .f32) (acc : Vec F S1024x512 .f32) :
    accE c t hk0 hjk0 hj0 hk7 x w acc = k0_pay3 x w acc := by
  unfold accE
  rw [View.read_writes_eq_canon _ _ _ (cover_accE c t hk0 hjk0 hj0 hk7 x w acc)]
  unfold RE runE
  dsimp only
  sl_unfold_words
  rw [View.canon_unit_zero (S := S1024x512) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case F (j > 0, k = 7): the output block is the last term over the carried projection and the accumulator as this point's store left it. -/
theorem outF_eq (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) :
    outF c t hk0 hjk0 hj0 hk7 x w bias b acc xr = k0_pay6 b xr (k0_pay3 x w acc) bias := by
  unfold outF
  rw [View.read_writes_eq_canon _ _ _ (cover_outF c t hk0 hjk0 hj0 hk7 x w bias b acc xr)]
  unfold RF runF
  dsimp only
  sl_unfold_words
  rw [View.canon_unit_zero (S := S1024x512) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

/-- Case F: the base accumulator takes this block's product. -/
theorem accF_eq (c : Dev nD) (t : Fin cfg0.N) (hk0 : ¬condK0 (grid0.coords t)) (hjk0 : ¬condJK0 (grid0.coords t)) (hj0 : ¬condJ0 (grid0.coords t)) (hk7 : condK7 (grid0.coords t)) (x : Vec F S1024x512 .f32) (w : Vec F S512x512 .f32) (bias : Vec F S1x512 .f32) (b : Vec F S512x16 .f32) (acc : Vec F S1024x512 .f32) (xr : Vec F S1024x16 .f32) :
    accF c t hk0 hjk0 hj0 hk7 x w bias b acc xr = k0_pay3 x w acc := by
  unfold accF
  rw [View.read_writes_eq_canon _ _ _ (cover_accF c t hk0 hjk0 hj0 hk7 x w bias b acc xr)]
  unfold RF runF
  dsimp only
  sl_unfold_words
  rw [View.canon_unit_zero (S := S1024x512) hz2]
  simp only [View.readAt_eq_ld, (hs0 t).read_unread, (hs1 t).read_unread, (hs2 t).read_unread, (hs3 t).read_unread,
    (hs4 t).read_unread, (hs5 t).read_unread, (Memref.isWhole_whole cc0_scratch0).read_unread,
    (Memref.isWhole_whole cc0_scratch1).read_unread, View.ld_unit_zero (S := S1024x512) hz2,
    View.ld_unit_zero (S := S512x512) hz2, View.ld_unit_zero (S := S1x512) hz2, View.ld_unit_zero (S := S16x512) hz2,
    View.ld_unit_zero (S := S512x16) hz2, View.ld_unit_zero (S := S1024x16) hz2,
    View.readCov_unit_zero (S := S1024x512) _ hz2, View.readCov_unit_zero (S := S1024x16) _ hz2]

end Cert.KernelIdeal.Body

end
-- ==== Proof.KI.Blocks.lean ====
/-
  Where a point's blocks sit in the arrays: a block's coordinate is always (block index × block size + the coordinate inside
  the block), and the index maps send the point t = 64 i + 8 j + k to block (i, k) of the activations, (j, k) of the weight,
  (0, j) of the bias row, (0, k) of the first low-rank factor and (j, 0) of the second.  Also what the host lines before the
  region made of the arguments: the activations with the two leading axes merged row-major, the bias as a row.
-/
import proofs.«163484_j40355512714072_1_alg».proof.Proof.KI.ValDefs
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The index maps, decided once over the grid: t = 64 i + 8 j + k -/

/-- The activations' block is (i, k). -/
theorem idxX : ∀ t : Fin cfg0.N, win0_0.index t 0 = t.val / 64 ∧ win0_0.index t 1 = t.val % 8 :=
  (by decide +kernel : ∀ t : Fin grid0.N, win0_0.index t 0 = t.val / 64 ∧ win0_0.index t 1 = t.val % 8)
/-- The weight's block is (j, k). -/
theorem idxW : ∀ t : Fin cfg0.N, win0_1.index t 0 = t.val / 8 % 8 ∧ win0_1.index t 1 = t.val % 8 :=
  (by decide +kernel : ∀ t : Fin grid0.N, win0_1.index t 0 = t.val / 8 % 8 ∧ win0_1.index t 1 = t.val % 8)
/-- The bias row's block is (0, j). -/
theorem idxR : ∀ t : Fin cfg0.N, win0_2.index t 0 = 0 ∧ win0_2.index t 1 = t.val / 8 % 8 :=
  (by decide +kernel : ∀ t : Fin grid0.N, win0_2.index t 0 = 0 ∧ win0_2.index t 1 = t.val / 8 % 8)
/-- The first low-rank factor's block is (0, k). -/
theorem idxA : ∀ t : Fin cfg0.N, win0_3.index t 0 = 0 ∧ win0_3.index t 1 = t.val % 8 :=
  (by decide +kernel : ∀ t : Fin grid0.N, win0_3.index t 0 = 0 ∧ win0_3.index t 1 = t.val % 8)
/-- The second low-rank factor's block is (j, 0). -/
theorem idxB : ∀ t : Fin cfg0.N, win0_4.index t 0 = t.val / 8 % 8 ∧ win0_4.index t 1 = 0 :=
  (by decide +kernel : ∀ t : Fin grid0.N, win0_4.index t 0 = t.val / 8 % 8 ∧ win0_4.index t 1 = 0)

/-! ## The blocks read at an index -/

theorem xB_apply (c : Dev nD) (t : Fin cfg0.N) (p : Fin 1024) (kk : Fin 512) :
    xB m c t (ix2 p kk) = Xa m c (ix2 (rowOf t p) (kOf t kk)) := by
  unfold xB iblk
  rw [View.read_apply]
  show V m c main_v0 _ = V m c main_v0 _
  congr 1
  funext a
  apply Fin.ext
  match a with
  | ⟨0, _⟩ =>
    show win0_0.index t 0 * 1024 + 1 * p.val = 1024 * (t.val / 64) + p.val
    rw [(idxX t).1]; omega
  | ⟨1, _⟩ =>
    show win0_0.index t 1 * 512 + 1 * kk.val = 512 * (t.val % 8) + kk.val
    rw [(idxX t).2]; omega
theorem wB_apply (c : Dev nD) (t : Fin cfg0.N) (q : Fin 512) (kk : Fin 512) :
    wB m c t (ix2 q kk) = Wa m c (ix2 (colOf t q) (kOf t kk)) := by
  unfold wB iblk
  rw [View.read_apply]
  show V m c main_arg1 _ = V m c main_arg1 _
  congr 1
  funext a
  apply Fin.ext
  match a with
  | ⟨0, _⟩ =>
    show win0_1.index t 0 * 512 + 1 * q.val = 512 * (t.val / 8 % 8) + q.val
    rw [(idxW t).1]; omega
  | ⟨1, _⟩ =>
    show win0_1.index t 1 * 512 + 1 * kk.val = 512 * (t.val % 8) + kk.val
    rw [(idxW t).2]; omega
theorem rB_apply (c : Dev nD) (t : Fin cfg0.N) (q : Fin 512) :
    rB m c t (ix2 (0 : Fin 1) q) = Ra m c (ix2 (0 : Fin 1) (colOf t q)) := by
  unfold rB iblk
  rw [View.read_apply]
  show V m c main_v1 _ = V m c main_v1 _
  congr 1
  funext a
  apply Fin.ext
  match a with
  | ⟨0, _⟩ =>
    show win0_2.index t 0 * 1 + 1 * 0 = 0
    rw [(idxR t).1]
  | ⟨1, _⟩ =>
    show win0_2.index t 1 * 512 + 1 * q.val = 512 * (t.val / 8 % 8) + q.val
    rw [(idxR t).2]; omega
theorem aB_apply (c : Dev nD) (t : Fin cfg0.N) (ρ : Fin 16) (kk : Fin 512) :
    aB m c t (ix2 ρ kk) = Aa m c (ix2 ρ (kOf t kk)) := by
  unfold aB iblk
  rw [View.read_apply]
  show V m c main_arg3 _ = V m c main_arg3 _
  congr 1
  funext a
  apply Fin.ext
  match a with
  | ⟨0, _⟩ =>
    show win0_3.index t 0 * 16 + 1 * ρ.val = ρ.val
    rw [(idxA t).1]; omega
  | ⟨1, _⟩ =>
    show win0_3.index t 1 * 512 + 1 * kk.val = 512 * (t.val % 8) + kk.val
    rw [(idxA t).2]; omega
theorem bB_apply (c : Dev nD) (t : Fin cfg0.N) (q : Fin 512) (ρ : Fin 16) :
    bB m c t (ix2 q ρ) = Ba m c (ix2 (colOf t q) ρ) := by
  unfold bB iblk
  rw [View.read_apply]
  show V m c main_arg4 _ = V m c main_arg4 _
  congr 1
  funext a
  apply Fin.ext
  match a with
  | ⟨0, _⟩ =>
    show win0_4.index t 0 * 512 + 1 * q.val = 512 * (t.val / 8 % 8) + q.val
    rw [(idxB t).1]; omega
  | ⟨1, _⟩ =>
    show win0_4.index t 1 * 16 + 1 * ρ.val = ρ.val
    rw [(idxB t).2]; omega

/-- The merged activations: row `r` is (batch r / 4096, position r mod 4096). -/
theorem Xa_apply (c : Dev nD) (r : Fin 16384) (κ : Fin 4096) :
    Xa m c (ix2 r κ) = (m ((c : Thread nD τ).loc main_arg0) : S4x4096x4096.Idx → EReal)
      (ix3 (⟨r.val / 4096, by have := r.isLt; omega⟩ : Fin 4) (⟨r.val % 4096, Nat.mod_lt _ (by norm_num)⟩ : Fin 4096) κ) := by
  have e : (Xa m c : S16384x4096.Idx → EReal)
      = shapeCast S16384x4096 (m ((c : Thread nD τ).loc main_arg0)) shapeCasts_S4x4096x4096_S16384x4096 := by
    show StableHlo.after hostOps0 (fun b => m (c, b)) (Proc.devRef .tc main_v0) = _
    after_results
    rfl
  rw [e]
  refine shapeCast_apply (s := S4x4096x4096) (t := S16384x4096) _ _ _ _ ?_
  show (S4x4096x4096.rowMajor (ix3 (⟨r.val / 4096, by have := r.isLt; omega⟩ : Fin 4) (⟨r.val % 4096, Nat.mod_lt _ (by norm_num)⟩ : Fin 4096) κ)).val
    = (S16384x4096.rowMajor (ix2 r κ)).val
  rw [Shape.rowMajor_val_three, Shape.rowMajor_val_two]
  show (r.val / 4096 * 4096 + r.val % 4096) * 4096 + κ.val = r.val * 4096 + κ.val
  omega
/-- The bias as a row. -/
theorem Ra_apply (c : Dev nD) (o : Fin 4096) :
    Ra m c (ix2 (0 : Fin 1) o) = (m ((c : Thread nD τ).loc main_arg2) : S4096.Idx → EReal) (ix1 o) := by
  have e : (Ra m c : S1x4096.Idx → EReal)
      = shapeCast S1x4096 (m ((c : Thread nD τ).loc main_arg2)) shapeCasts_S4096_S1x4096 := by
    show StableHlo.after hostOps0 (fun b => m (c, b)) (Proc.devRef .tc main_v1) = _
    after_results
    rfl
  rw [e]
  exact shapeCast_a_1a_apply _ _ _ _
theorem Wa_eq (c : Dev nD) : Wa m c = m ((c : Thread nD τ).loc main_arg1) := V_main_arg1 m c
theorem Aa_eq (c : Dev nD) : Aa m c = m ((c : Thread nD τ).loc main_arg3) := V_main_arg3 m c
theorem Ba_eq (c : Dev nD) : Ba m c = m ((c : Thread nD τ).loc main_arg4) := V_main_arg4 m c

end Cert.KernelIdeal.Val

end
-- ==== Proof.KI.Payloads.lean ====
/-
  The six pure terms of the kernel body, read at an index on the extended reals.

  At the ideal values a change of float format is the identity, a shape cast of a shape to itself is the identity, a
  transposed matrix read at (k, c) is the matrix at (c, k), one row broadcast over 1024 rows reads that row, and a
  matrix product accumulated into the zero splat is the plain sum over the one contraction axis of the products of the
  operands' elements.  So:
    * the two initialisations are the zero array;
    * the dense step adds to the accumulator at (p, q) the sum over the 512 columns kk of x[p, kk] · w[q, kk];
    * the low-rank step adds to its accumulator at (p, ρ) the sum over kk of x[p, kk] · a[ρ, kk];
    * the last term is (acc[p, q] + bias[0, q]) + (Σ_ρ xr[p, ρ] · b[q, ρ]) · scale, the scale kept as its float word.
  Each product has the left operand of the matrix product first, as in the reference's contraction.
-/
import proofs.«163484_j40355512714072_1_alg».proof.Proof.Gen.KernelIdeal.Skeleton
import proofs.«163484_j40355512714072_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The three matrix products: operand indices, axis by axis

Each product contracts axis 1 of its left operand with axis 0 of its right operand; the result's axis 0 is the left
operand's free axis and its axis 1 the right operand's. -/

theorem lhs_d3_0 (i : S1024x512.Idx) (c : dot_S1024x512_S512x512_S1024x512_1_0_0_1_n_n.contr.Idx) :
    (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_d3_1 (i : S1024x512.Idx) (c : dot_S1024x512_S512x512_S1024x512_1_0_0_1_n_n.contr.Idx) :
    (dot_S1024x512_S512x512_S1024x512_1_0_0_1_n_n.lhsIdx i c 1).val = (c ⟨0, by decide⟩).val :=
  dot_S1024x512_S512x512_S1024x512_1_0_0_1_n_n.lhsIdx_val_of_single rfl i c
theorem rhs_d3_0 (i : S1024x512.Idx) (c : dot_S1024x512_S512x512_S1024x512_1_0_0_1_n_n.contr.Idx) :
    (dot_S1024x512_S512x512_S1024x512_1_0_0_1_n_n.rhsIdx i c 0).val = (c ⟨0, by decide⟩).val :=
  dot_S1024x512_S512x512_S1024x512_1_0_0_1_n_n.rhsIdx_val_of_single rfl i c
theorem rhs_d3_1 (i : S1024x512.Idx) (c : dot_S1024x512_S512x512_S1024x512_1_0_0_1_n_n.contr.Idx) :
    (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The [1024,512] × [512,512] product into the zero splat, at (p, q): the sum over the contraction coordinate. -/
theorem mm_d3_apply (l : FVec Ideal S1024x512 .bf16) (r : FVec Ideal S512x512 .bf16) (p : Fin 1024) (q : Fin 512) :
    matmul dot_S1024x512_S512x512_S1024x512_1_0_0_1_n_n none l r (constant (F := Ideal) S1024x512 .f32 0x00000000#32) (ix2 p q)
      = ∑ kk : Fin 512, l (ix2 p kk) * r (ix2 kk q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_d3_0 _ _
    | ⟨1, _⟩ => exact (lhs_d3_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (rhs_d3_0 _ _).trans hk
    | ⟨1, _⟩ => exact rhs_d3_1 _ _)
  rw [el, er]

theorem lhs_d5_0 (i : S1024x16.Idx) (c : dot_S1024x512_S512x16_S1024x16_1_0_0_1_n_n.contr.Idx) :
    (dot_S1024x512_S512x16_S1024x16_1_0_0_1_n_n.lhsIdx i c 0).val = (i 0).val := by
  unfold DotDims.lhsIdx
  rw [dif_neg (show ¬(0 : Fin S1024x512.rank) ∈ dot_S1024x512_S512x16_S1024x16_1_0_0_1_n_n.lhsBatch by decide), dif_pos (show (0 : Fin S1024x512.rank) ∈ dot_S1024x512_S512x16_S1024x16_1_0_0_1_n_n.lhsNonContracting by decide)]
  rfl
theorem lhs_d5_1 (i : S1024x16.Idx) (c : dot_S1024x512_S512x16_S1024x16_1_0_0_1_n_n.contr.Idx) :
    (dot_S1024x512_S512x16_S1024x16_1_0_0_1_n_n.lhsIdx i c 1).val = (c ⟨0, by decide⟩).val :=
  dot_S1024x512_S512x16_S1024x16_1_0_0_1_n_n.lhsIdx_val_of_single rfl i c
theorem rhs_d5_0 (i : S1024x16.Idx) (c : dot_S1024x512_S512x16_S1024x16_1_0_0_1_n_n.contr.Idx) :
    (dot_S1024x512_S512x16_S1024x16_1_0_0_1_n_n.rhsIdx i c 0).val = (c ⟨0, by decide⟩).val :=
  dot_S1024x512_S512x16_S1024x16_1_0_0_1_n_n.rhsIdx_val_of_single rfl i c
theorem rhs_d5_1 (i : S1024x16.Idx) (c : dot_S1024x512_S512x16_S1024x16_1_0_0_1_n_n.contr.Idx) :
    (dot_S1024x512_S512x16_S1024x16_1_0_0_1_n_n.rhsIdx i c 1).val = (i 1).val := by
  unfold DotDims.rhsIdx
  rw [dif_neg (show ¬(1 : Fin S512x16.rank) ∈ dot_S1024x512_S512x16_S1024x16_1_0_0_1_n_n.rhsBatch by decide), dif_pos (show (1 : Fin S512x16.rank) ∈ dot_S1024x512_S512x16_S1024x16_1_0_0_1_n_n.rhsNonContracting by decide)]
  rfl

/-- The [1024,512] × [512,16] product into the zero splat, at (p, ρ). -/
theorem mm_d5_apply (l : FVec Ideal S1024x512 .bf16) (r : FVec Ideal S512x16 .bf16) (p : Fin 1024) (q : Fin 16) :
    matmul dot_S1024x512_S512x16_S1024x16_1_0_0_1_n_n none l r (constant (F := Ideal) S1024x16 .f32 0x00000000#32) (ix2 p q)
      = ∑ kk : Fin 512, l (ix2 p kk) * r (ix2 kk q) := by
  simp only [matmul]
  rw [Ideal.matmul_constant_zero_apply, ← Equiv.sum_comp (contrEquiv1 dot_S1024x512_S512x16_S1024x16_1_0_0_1_n_n 512 rfl rfl).symm]
  refine Finset.sum_congr rfl fun k _ => ?_
  have hk := contrEquiv1_symm_val dot_S1024x512_S512x16_S1024x16_1_0_0_1_n_n 512 rfl rfl k
  have el : dot_S1024x512_S512x16_S1024x16_1_0_0_1_n_n.lhsIdx (ix2 p q) ((contrEquiv1 dot_S1024x512_S512x16_S1024x16_1_0_0_1_n_n 512 rfl rfl).symm k) = ix2 p k := funext fun a => Fin.ext (by
    match a with
    | ⟨0, _⟩ => exact lhs_d5_0 _ _
    | ⟨1, _⟩ => exact (lhs_d5_1 _ _).trans hk)
  have er : dot_S1024x512_S512x16_S1024x16_1_0_0_1_n_n.rhsIdx (ix2 p q) ((contrEquiv1 dot_S1024x512_S512x16_S1024x16_1_0_0_1_n_n 512 rfl rfl).symm k) = ix2 k q := funext fun a => Fin.ext (by
    match a with
    | ⟨0, _⟩ => exact (rhs_d5_0 _ _).trans hk
    | ⟨1, _⟩ => exact rhs_d5_1 _ _)
  rw [el, er]

theorem lhs_d6_0 (i : S1024x512.Idx) (c : dot_S1024x16_S16x512_S1024x512_1_0_0_1_n_n.contr.Idx) :
    (dot_S1024x16_S16x512_S1024x512_1_0_0_1_n_n.lhsIdx i c 0).val = (i 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
theorem lhs_d6_1 (i : S1024x512.Idx) (c : dot_S1024x16_S16x512_S1024x512_1_0_0_1_n_n.contr.Idx) :
    (dot_S1024x16_S16x512_S1024x512_1_0_0_1_n_n.lhsIdx i c 1).val = (c ⟨0, by decide⟩).val :=
  dot_S1024x16_S16x512_S1024x512_1_0_0_1_n_n.lhsIdx_val_of_single rfl i c
theorem rhs_d6_0 (i : S1024x512.Idx) (c : dot_S1024x16_S16x512_S1024x512_1_0_0_1_n_n.contr.Idx) :
    (dot_S1024x16_S16x512_S1024x512_1_0_0_1_n_n.rhsIdx i c 0).val = (c ⟨0, by decide⟩).val :=
  dot_S1024x16_S16x512_S1024x512_1_0_0_1_n_n.rhsIdx_val_of_single rfl i c
theorem rhs_d6_1 (i : S1024x512.Idx) (c : dot_S1024x16_S16x512_S1024x512_1_0_0_1_n_n.contr.Idx) :
    (dot_S1024x16_S16x512_S1024x512_1_0_0_1_n_n.rhsIdx i c 1).val = (i 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl

/-- The [1024,16] × [16,512] product into the zero splat, at (p, q). -/
theorem mm_d6_apply (l : FVec Ideal S1024x16 .bf16) (r : FVec Ideal S16x512 .bf16) (p : Fin 1024) (q : Fin 512) :
    matmul dot_S1024x16_S16x512_S1024x512_1_0_0_1_n_n none l r (constant (F := Ideal) S1024x512 .f32 0x00000000#32) (ix2 p q)
      = ∑ kk : Fin 16, l (ix2 p kk) * r (ix2 kk q) := by
  simp only [matmul]
  rw [Ideal.matmul_constant_zero_apply, ← Equiv.sum_comp (contrEquiv1 dot_S1024x16_S16x512_S1024x512_1_0_0_1_n_n 16 rfl rfl).symm]
  refine Finset.sum_congr rfl fun k _ => ?_
  have hk := contrEquiv1_symm_val dot_S1024x16_S16x512_S1024x512_1_0_0_1_n_n 16 rfl rfl k
  have el : dot_S1024x16_S16x512_S1024x512_1_0_0_1_n_n.lhsIdx (ix2 p q) ((contrEquiv1 dot_S1024x16_S16x512_S1024x512_1_0_0_1_n_n 16 rfl rfl).symm k) = ix2 p k := funext fun a => Fin.ext (by
    match a with
    | ⟨0, _⟩ => exact lhs_d6_0 _ _
    | ⟨1, _⟩ => exact (lhs_d6_1 _ _).trans hk)
  have er : dot_S1024x16_S16x512_S1024x512_1_0_0_1_n_n.rhsIdx (ix2 p q) ((contrEquiv1 dot_S1024x16_S16x512_S1024x512_1_0_0_1_n_n 16 rfl rfl).symm k) = ix2 k q := funext fun a => Fin.ext (by
    match a with
    | ⟨0, _⟩ => exact (rhs_d6_0 _ _).trans hk
    | ⟨1, _⟩ => exact rhs_d6_1 _ _)
  rw [el, er]

/-! ## The transposed right operands at an index (the format change is the identity) -/

/-- The dense weights block, narrowed and transposed, at (kk, q): the block at (q, kk). -/
theorem tr_w_apply (w : FVec Ideal S512x512 .f32) (kk : Fin 512) (q : Fin 512) :
    transpose S512x512 [1, 0] (truncf .bf16 w bitsLt_bf16_f32 : FVec Ideal S512x512 .bf16) transposes_S512x512_p1_0_S512x512 (ix2 kk q)
      = w (ix2 q kk) :=
  transpose_ix2_apply (truncf .bf16 w bitsLt_bf16_f32) transposes_S512x512_p1_0_S512x512 kk q

/-- The down-projection block, narrowed and transposed, at (kk, ρ): the block at (ρ, kk). -/
theorem tr_a_apply (a : FVec Ideal S16x512 .f32) (kk : Fin 512) (ρ : Fin 16) :
    transpose S512x16 [1, 0] (truncf .bf16 a bitsLt_bf16_f32 : FVec Ideal S16x512 .bf16) transposes_S16x512_p1_0_S512x16 (ix2 kk ρ)
      = a (ix2 ρ kk) :=
  transpose_ix2_apply (truncf .bf16 a bitsLt_bf16_f32) transposes_S16x512_p1_0_S512x16 kk ρ

/-- The up-projection block, narrowed and transposed, at (ρ, q): the block at (q, ρ). -/
theorem tr_b_apply (b : FVec Ideal S512x16 .f32) (ρ : Fin 16) (q : Fin 512) :
    transpose S16x512 [1, 0] (truncf .bf16 b bitsLt_bf16_f32 : FVec Ideal S512x16 .bf16) transposes_S512x16_p1_0_S16x512 (ix2 ρ q)
      = b (ix2 q ρ) :=
  transpose_ix2_apply (truncf .bf16 b bitsLt_bf16_f32) transposes_S512x16_p1_0_S16x512 ρ q

/-! ## The payloads at an index -/

/-- The dense accumulator's initial value is zero everywhere. -/
theorem pay1_apply (j : S1024x512.Idx) : k0_pay1 (F := Ideal) j = 0 := by
  unfold k0_pay1
  simp only [shapeCast_self, broadcast_apply]
  exact Ideal.ofBits_zero_f32

/-- The low-rank accumulator's initial value is zero everywhere. -/
theorem pay4_apply (j : S1024x16.Idx) : k0_pay4 (F := Ideal) j = 0 := by
  unfold k0_pay4
  simp only [shapeCast_self, broadcast_apply]
  exact Ideal.ofBits_zero_f32

/-- The activations block after its format change, at an index: the block itself. -/
theorem pay2_apply (x : Vec Ideal S1024x512 .f32) (j : S1024x512.Idx) : k0_pay2 x j = x j := by
  unfold k0_pay2
  simp only [shapeCast_self, truncf_apply]

/-- The dense step: the accumulator plus the block's inner products of row p of x with row q of w. -/
theorem pay3_apply (x : Vec Ideal S1024x512 .f32) (w : Vec Ideal S512x512 .f32) (acc : Vec Ideal S1024x512 .f32)
    (p : Fin 1024) (q : Fin 512) :
    k0_pay3 x w acc (ix2 p q) = acc (ix2 p q) + ∑ kk : Fin 512, x (ix2 p kk) * w (ix2 q kk) := by
  unfold k0_pay3
  simp only [shapeCast_self, addf_apply, mm_d3_apply, pay2_apply]
  refine congrArg _ (Finset.sum_congr rfl fun kk _ => ?_)
  rw [tr_w_apply]

/-- The low-rank step: the accumulator plus the block's inner products of row p of x with row ρ of a. -/
theorem pay5_apply (x : Vec Ideal S1024x512 .f32) (a : Vec Ideal S16x512 .f32) (xr : Vec Ideal S1024x16 .f32)
    (p : Fin 1024) (ρ : Fin 16) :
    k0_pay5 x a xr (ix2 p ρ) = xr (ix2 p ρ) + ∑ kk : Fin 512, x (ix2 p kk) * a (ix2 ρ kk) := by
  unfold k0_pay5
  simp only [shapeCast_self, addf_apply, mm_d5_apply, pay2_apply]
  refine congrArg _ (Finset.sum_congr rfl fun kk _ => ?_)
  rw [tr_a_apply]

/-- The last term: accumulator plus bias, plus the rank-16 product times the scale (its float word, not evaluated). -/
theorem pay6_apply (b : Vec Ideal S512x16 .f32) (xr : Vec Ideal S1024x16 .f32) (acc : Vec Ideal S1024x512 .f32)
    (bias : Vec Ideal S1x512 .f32) (p : Fin 1024) (q : Fin 512) :
    k0_pay6 b xr acc bias (ix2 p q)
      = (acc (ix2 p q) + bias (ix2 (0 : Fin 1) q)) + (∑ ρ : Fin 16, xr (ix2 p ρ) * b (ix2 q ρ)) * LoraSpec.scale := by
  unfold k0_pay6
  simp only [shapeCast_self, addf_apply, mulf_apply, mm_d6_apply, truncf_apply, broadcast_apply,
    broadcastTo_1b_ab_apply]
  refine congrArg (fun t => acc (ix2 p q) + bias (ix2 (0 : Fin 1) q) + t * LoraSpec.scale)
    (Finset.sum_congr rfl fun ρ _ => ?_)
  rw [tr_b_apply]

end Cert.KernelIdeal.Pay

end
-- ==== Proof.KI.Invariant.lean ====
/-
  What the three written buffers hold after each grid point t = 64 i + 8 j + k, by induction on the point:
  the base accumulator holds the first k + 1 blocks of the inner product of row (1024 i + p) of the activations with row
  (512 j + q) of the weight; the cached projection holds the first k + 1 blocks of the inner product with row ρ of the first
  low-rank factor while j = 0, and all eight blocks once j > 0; and where k = 7 the output block holds the result.
-/
import proofs.«163484_j40355512714072_1_alg».proof.Proof.KI.ValDefs
import proofs.«163484_j40355512714072_1_alg».proof.Proof.KI.Pieces
import proofs.«163484_j40355512714072_1_alg».proof.Proof.KI.Blocks
import proofs.«163484_j40355512714072_1_alg».proof.Proof.KI.Payloads

set_option maxRecDepth 16384

noncomputable section

namespace Cert.KernelIdeal.Val

open Cert.KernelIdeal Cert.KernelIdeal.Gen Cert.KernelIdeal.Body Cert.KernelIdeal.Pay
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## One point, from what the point before left -/

/-- The base accumulator after a point: what it held (zero where k = 0) plus this block's inner products. -/
theorem acc_step (c : Dev nD) (t : Fin cfg0.N) (prev : Vec Ideal S1024x512 .f32 × Vec Ideal S1024x16 .f32)
    (p : Fin 1024) (q : Fin 512) :
    ((stepAt m c t prev).2.1 : S1024x512.Idx → EReal) (ix2 p q)
      = (if t.val % 8 = 0 then 0 else (prev.1 : S1024x512.Idx → EReal) (ix2 p q))
        + ∑ kk : Fin 512, (xB m c t : S1024x512.Idx → EReal) (ix2 p kk) * (wB m c t : S512x512.Idx → EReal) (ix2 q kk) := by
  by_cases hj : t.val % 64 < 8
  · by_cases h0 : t.val % 8 = 0
    · rw [stepAt_A m c t prev hj h0, if_pos h0]; dsimp only
      rw [accA_eq]
      refine (pay3_apply _ _ _ p q).trans ?_
      rw [pay1_apply]
    · by_cases h7 : t.val % 8 = 7
      · rw [stepAt_C m c t prev hj h0 h7, if_neg h0]; dsimp only
        rw [accC_eq]
        exact pay3_apply _ _ _ p q
      · rw [stepAt_B m c t prev hj h0 h7, if_neg h0]; dsimp only
        rw [accB_eq]
        exact pay3_apply _ _ _ p q
  · by_cases h0 : t.val % 8 = 0
    · rw [stepAt_D m c t prev hj h0, if_pos h0]; dsimp only
      rw [accD_eq]
      refine (pay3_apply _ _ _ p q).trans ?_
      rw [pay1_apply]
    · by_cases h7 : t.val % 8 = 7
      · rw [stepAt_F m c t prev hj h0 h7, if_neg h0]; dsimp only
        rw [accF_eq]
        exact pay3_apply _ _ _ p q
      · rw [stepAt_E m c t prev hj h0 h7, if_neg h0]; dsimp only
        rw [accE_eq]
        exact pay3_apply _ _ _ p q

/-- The cached projection after a point: while j = 0, what it held (zero where k = 0) plus this block's inner
    products; carried unchanged once j > 0. -/
theorem xr_step (c : Dev nD) (t : Fin cfg0.N) (prev : Vec Ideal S1024x512 .f32 × Vec Ideal S1024x16 .f32)
    (p : Fin 1024) (ρ : Fin 16) :
    ((stepAt m c t prev).2.2 : S1024x16.Idx → EReal) (ix2 p ρ)
      = if t.val % 64 < 8 then
          (if t.val % 8 = 0 then 0 else (prev.2 : S1024x16.Idx → EReal) (ix2 p ρ))
            + ∑ kk : Fin 512, (xB m c t : S1024x512.Idx → EReal) (ix2 p kk) * (aB m c t : S16x512.Idx → EReal) (ix2 ρ kk)
        else (prev.2 : S1024x16.Idx → EReal) (ix2 p ρ) := by
  by_cases hj : t.val % 64 < 8
  · rw [if_pos hj]
    by_cases h0 : t.val % 8 = 0
    · rw [stepAt_A m c t prev hj h0, if_pos h0]; dsimp only
      rw [xrA_eq]
      refine (pay5_apply _ _ _ p ρ).trans ?_
      rw [pay4_apply]
    · by_cases h7 : t.val % 8 = 7
      · rw [stepAt_C m c t prev hj h0 h7, if_neg h0]; dsimp only
        rw [xrC_eq]
        exact pay5_apply _ _ _ p ρ
      · rw [stepAt_B m c t prev hj h0 h7, if_neg h0]; dsimp only
        rw [xrB_eq]
        exact pay5_apply _ _ _ p ρ
  · rw [if_neg hj]
    by_cases h0 : t.val % 8 = 0
    · rw [stepAt_D m c t prev hj h0]
    · by_cases h7 : t.val % 8 = 7
      · rw [stepAt_F m c t prev hj h0 h7]
      · rw [stepAt_E m c t prev hj h0 h7]

/-- The output block where k = 7: this point's accumulator plus the bias row, plus (this point's projection times the
    second factor) times the scale. -/
theorem out_step (c : Dev nD) (t : Fin cfg0.N) (prev : Vec Ideal S1024x512 .f32 × Vec Ideal S1024x16 .f32)
    (h7 : t.val % 8 = 7) (p : Fin 1024) (q : Fin 512) :
    ((stepAt m c t prev).1 : S1024x512.Idx → EReal) (ix2 p q)
      = (((stepAt m c t prev).2.1 : S1024x512.Idx → EReal) (ix2 p q) + (rB m c t : S1x512.Idx → EReal) (ix2 (0 : Fin 1) q))
        + (∑ ρ : Fin 16, ((stepAt m c t prev).2.2 : S1024x16.Idx → EReal) (ix2 p ρ) * (bB m c t : S512x16.Idx → EReal) (ix2 q ρ))
          * LoraSpec.scale := by
  have h0 : ¬ t.val % 8 = 0 := by omega
  by_cases hj : t.val % 64 < 8
  · rw [stepAt_C m c t prev hj h0 h7]; dsimp only
    rw [outC_eq, accC_eq, xrC_eq]
    exact pay6_apply _ _ _ _ p q
  · rw [stepAt_F m c t prev hj h0 h7]; dsimp only
    rw [outF_eq, accF_eq]
    exact pay6_apply _ _ _ _ p q

/-! ## A point's block of products, as terms of the whole row -/

theorem blockW (c : Dev nD) (t : Fin cfg0.N) (p : Fin 1024) (q : Fin 512) :
    ∑ kk : Fin 512, (xB m c t : S1024x512.Idx → EReal) (ix2 p kk) * (wB m c t : S512x512.Idx → EReal) (ix2 q kk)
      = ∑ kk : Fin 512, extN (prodW m c (rowOf t p) (colOf t q)) (512 * (t.val % 8) + kk.val) := by
  refine Finset.sum_congr rfl fun kk _ => ?_
  rw [xB_apply, wB_apply]
  exact (extN_val (prodW m c (rowOf t p) (colOf t q)) (kOf t kk)).symm

theorem blockA (c : Dev nD) (t : Fin cfg0.N) (p : Fin 1024) (ρ : Fin 16) :
    ∑ kk : Fin 512, (xB m c t : S1024x512.Idx → EReal) (ix2 p kk) * (aB m c t : S16x512.Idx → EReal) (ix2 ρ kk)
      = ∑ kk : Fin 512, extN (prodA m c (rowOf t p) ρ) (512 * (t.val % 8) + kk.val) := by
  refine Finset.sum_congr rfl fun kk _ => ?_
  rw [xB_apply, aB_apply]
  exact (extN_val (prodA m c (rowOf t p) ρ) (kOf t kk)).symm

/-! ## The invariant, point after point -/

/-- What the two scratch buffers hold after point `n`. -/
def InvAt (c : Dev nD) (n : ℕ) (h : n < cfg0.N) : Prop :=
  (∀ (p : Fin 1024) (q : Fin 512), ((stAt m c n h).2.1 : S1024x512.Idx → EReal) (ix2 p q)
      = LoraSpec.blockSum (extN (prodW m c (rowOf ⟨n, h⟩ p) (colOf ⟨n, h⟩ q))) (n % 8 + 1)) ∧
  (∀ (p : Fin 1024) (ρ : Fin 16), ((stAt m c n h).2.2 : S1024x16.Idx → EReal) (ix2 p ρ)
      = LoraSpec.blockSum (extN (prodA m c (rowOf ⟨n, h⟩ p) ρ)) (if n % 64 < 8 then n % 8 + 1 else 8))

/-- The point before is in the same row block unless this point opens one, and in the same column block unless this
    point opens one. -/
theorem rowOf_pred (t : Fin cfg0.N) (h : t.val - 1 < cfg0.N) (hne : t.val % 64 ≠ 0) (p : Fin 1024) :
    rowOf ⟨t.val - 1, h⟩ p = rowOf t p := by
  apply Fin.ext
  show 1024 * ((t.val - 1) / 64) + p.val = 1024 * (t.val / 64) + p.val
  omega
theorem colOf_pred (t : Fin cfg0.N) (h : t.val - 1 < cfg0.N) (hne : t.val % 8 ≠ 0) (q : Fin 512) :
    colOf ⟨t.val - 1, h⟩ q = colOf t q := by
  apply Fin.ext
  show 512 * ((t.val - 1) / 8 % 8) + q.val = 512 * (t.val / 8 % 8) + q.val
  omega

theorem inv_step (c : Dev nD) (t : Fin cfg0.N)
    (ih : ∀ hz : t.val ≠ 0, InvAt m c (t.val - 1) (Nat.lt_of_le_of_lt (Nat.sub_le _ _) t.isLt)) :
    InvAt m c t.val t.isLt := by
  constructor
  · intro p q
    rw [stAt_eq m c t, acc_step, blockW]
    by_cases h0 : t.val % 8 = 0
    · rw [if_pos h0, h0, LoraSpec.blockSum_succ, LoraSpec.blockSum_zero]
    · have hz : t.val ≠ 0 := by omega
      rw [if_neg h0, prevAt_pos m c t hz, (ih hz).1 p q, rowOf_pred t _ (by omega) p, colOf_pred t _ h0 q]
      have hk : (t.val - 1) % 8 + 1 = t.val % 8 := by omega
      rw [hk]
      exact (LoraSpec.blockSum_succ _ _).symm
  · intro p ρ
    rw [stAt_eq m c t, xr_step]
    by_cases hj : t.val % 64 < 8
    · rw [if_pos hj, if_pos hj, blockA]
      by_cases h0 : t.val % 8 = 0
      · rw [if_pos h0, h0, LoraSpec.blockSum_succ, LoraSpec.blockSum_zero]
      · have hz : t.val ≠ 0 := by omega
        rw [if_neg h0, prevAt_pos m c t hz, (ih hz).2 p ρ, rowOf_pred t _ (by omega) p]
        have hk : (if (t.val - 1) % 64 < 8 then (t.val - 1) % 8 + 1 else 8) = t.val % 8 := by
          split_ifs <;> omega
        rw [hk]
        exact (LoraSpec.blockSum_succ _ _).symm
    · have hz : t.val ≠ 0 := by omega
      rw [if_neg hj, if_neg hj, prevAt_pos m c t hz, (ih hz).2 p ρ, rowOf_pred t _ (by omega) p]
      have hk : (if (t.val - 1) % 64 < 8 then (t.val - 1) % 8 + 1 else 8) = 8 := by
        split_ifs <;> omega
      rw [hk]

theorem inv_all (c : Dev nD) (n : ℕ) : ∀ h : n < cfg0.N, InvAt m c n h := by
  induction n with
  | zero => exact fun h => inv_step m c ⟨0, h⟩ (fun hz => absurd rfl hz)
  | succ n ih => exact fun h => inv_step m c ⟨n + 1, h⟩ (fun _ => ih (Nat.lt_of_succ_lt h))

theorem acc_inv (c : Dev nD) (t : Fin cfg0.N) (p : Fin 1024) (q : Fin 512) :
    ((stAt m c t.val t.isLt).2.1 : S1024x512.Idx → EReal) (ix2 p q)
      = LoraSpec.blockSum (extN (prodW m c (rowOf t p) (colOf t q))) (t.val % 8 + 1) :=
  (inv_all m c t.val t.isLt).1 p q

theorem xr_inv (c : Dev nD) (t : Fin cfg0.N) (p : Fin 1024) (ρ : Fin 16) :
    ((stAt m c t.val t.isLt).2.2 : S1024x16.Idx → EReal) (ix2 p ρ)
      = LoraSpec.blockSum (extN (prodA m c (rowOf t p) ρ)) (if t.val % 64 < 8 then t.val % 8 + 1 else 8) :=
  (inv_all m c t.val t.isLt).2 p ρ

theorem out_at (c : Dev nD) (t : Fin cfg0.N) (h7 : t.val % 8 = 7) (p : Fin 1024) (q : Fin 512) :
    ((stAt m c t.val t.isLt).1 : S1024x512.Idx → EReal) (ix2 p q) = G2 m c (ix2 (rowOf t p) (colOf t q)) := by
  have e := stAt_eq m c t
  have hc : (if t.val % 64 < 8 then t.val % 8 + 1 else 8) = 8 := by split_ifs <;> omega
  have hs : ∑ ρ : Fin 16, ((stAt m c t.val t.isLt).2.2 : S1024x16.Idx → EReal) (ix2 p ρ) * (bB m c t : S512x16.Idx → EReal) (ix2 q ρ)
      = ∑ ρ : Fin 16, LoraSpec.blockSum (extN (prodA m c (rowOf t p) ρ)) 8 * Ba m c (ix2 (colOf t q) ρ) :=
    Finset.sum_congr rfl fun ρ _ => by rw [xr_inv, bB_apply, hc]
  rw [e, out_step m c t _ h7 p q, ← e, acc_inv m c t p q, rB_apply, hs, h7]
  rfl

end Cert.KernelIdeal.Val

end
-- ==== Proof.KI.Final.lean ====
/-
  From blocks to the array.  The output window is written back exactly at the points with k = 7, and point
  t = 64 i + 8 j + 7 writes rows 1024 i … 1024 i + 1023, columns 512 j … 512 j + 511: block (i, j) of a 16 × 8 tiling of the
  16384 × 4096 result.  What it writes is the result function restricted to that block, so after all write-backs the array
  holds the result function everywhere (every entry (r, o) lies in the block of the point 64 (r / 1024) + 8 (o / 512) + 7).
-/
import proofs.«163484_j40355512714072_1_alg».proof.Proof.KI.Invariant
import proofs.«163484_j40355512714072_1_alg».proof.Proof.KI.Oblig
import Idealize.ShloMosaic.Lib.Pipeline.Value

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The output window's index map over the grid: block (i, j). -/
theorem idx5 : ∀ t : Fin cfg0.N, win0_5.index t (0 : Fin 2) = t.val / 64 ∧ win0_5.index t (1 : Fin 2) = t.val / 8 % 8 :=
  (by decide +kernel : ∀ t : Fin grid0.N, win0_5.index t (0 : Fin 2) = t.val / 64 ∧ win0_5.index t (1 : Fin 2) = t.val / 8 % 8)

/-- The result over the merged rows, as contents of the kernel's result array. -/
abbrev resArr (c : Dev nD) : Buf (Elt Ideal) ((c : Thread nD τ).loc main_v2) := G2 m c

/-- What a point with k = 7 writes back is its block of the result. -/
theorem flushed_eq (c : Dev nD) (t : Fin cfg0.N) (hf : (cfg0.win 5).flush t = true) :
    (dats m 0 c).flushed 5 t = ((cfg0.win 5).blk t).view.read (Elt Ideal) (resArr m c) := by
  have h7 : t.val % 8 = 7 := (flush0_5 t).mp hf
  show (cfg0.win 5).cut (grid0.coords t) ((dats m 0 c).after 5 t) = _
  rw [after5]
  funext j
  obtain ⟨p, q, rfl⟩ : ∃ (p : Fin 1024) (q : Fin 512), j = ix2 p q := ⟨j 0, j 1, eq_ix2 j⟩
  show ((stAt m c t.val t.isLt).1 : S1024x512.Idx → EReal) (ix2 p q) = G2 m c (((cfg0.win 5).blk t).view.emb (ix2 p q))
  rw [out_at m c t h7 p q]
  congr 1
  obtain ⟨e0, e1⟩ := idx5 t
  funext a; apply Fin.ext
  match a with
  | ⟨0, _⟩ => show 1024 * (t.val / 64) + p.val = win0_5.index t (0 : Fin 2) * 1024 + 1 * p.val; rw [e0]; omega
  | ⟨1, _⟩ => show 512 * (t.val / 8 % 8) + q.val = win0_5.index t (1 : Fin 2) * 512 + 1 * q.val; rw [e1]; omega

/-- An entry of the array is in point `t`'s block iff each coordinate is in the block's range on its axis. -/
theorem mem_blk5 (t : Fin cfg0.N) (i : S16384x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v2).slice (win0_5.rect t)).set ↔ _
  rw [View.set_slice_whole, Rect.mem_set_unit]
  exact Iff.rfl

/-- Every entry is written back by some point. -/
theorem cover5 (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 1024 := N_0
  have htv : 64 * ((i 0).val / 1024) + 8 * ((i 1).val / 512) + 7 < cfg0.N := by omega
  refine ⟨⟨64 * ((i 0).val / 1024) + 8 * ((i 1).val / 512) + 7, htv⟩, (flush0_5 _).mpr (by show (64 * ((i 0).val / 1024) + 8 * ((i 1).val / 512) + 7) % 8 = 7; omega), ?_⟩
  rw [mem_blk5]
  obtain ⟨e0, e1⟩ := idx5 ⟨64 * ((i 0).val / 1024) + 8 * ((i 1).val / 512) + 7, htv⟩
  have e0' : win0_5.index ⟨64 * ((i 0).val / 1024) + 8 * ((i 1).val / 512) + 7, htv⟩ (0 : Fin 2) = (i 0).val / 1024 := by rw [e0]; show (64 * ((i 0).val / 1024) + 8 * ((i 1).val / 512) + 7) / 64 = _; omega
  have e1' : win0_5.index ⟨64 * ((i 0).val / 1024) + 8 * ((i 1).val / 512) + 7, htv⟩ (1 : Fin 2) = (i 1).val / 512 := by rw [e1]; show (64 * ((i 0).val / 1024) + 8 * ((i 1).val / 512) + 7) / 8 % 8 = _; omega
  intro a
  match a with
  | ⟨0, _⟩ =>
    show win0_5.index _ (0 : Fin 2) * 1024 ≤ (i 0).val ∧ (i 0).val < win0_5.index _ (0 : Fin 2) * 1024 + 1024
    rw [e0']; omega
  | ⟨1, _⟩ =>
    show win0_5.index _ (1 : Fin 2) * 512 ≤ (i 1).val ∧ (i 1).val < win0_5.index _ (1 : Fin 2) * 512 + 512
    rw [e1']; omega

/-- The kernel's result array after the run. -/
theorem final5 (c : Dev nD) : (dats m 0 c).arrAt 5 cfg0.N = resArr m c :=
  (dats m 0 c).arrAt_eq_of_cover 5 (resArr m c) (flushed_eq m c) (cover5)

end Cert.KernelIdeal.Val

end
-- ==== Proof.KI.SpecAt.lean ====
/-
  The result over merged rows is the specification.  Splitting the merged row axis row-major sends entry (b, s, o) of the
  4 × 4096 × 4096 result to entry (4096 b + s, o) of the 16384 × 4096 array.  At such a row the merged activations are
  x[b, s, ·], the bias row is the bias, and the eight blocks of each inner product add up to the whole sum over the
  contraction axis; so the result there is the specification at (b, s, o).
-/
import proofs.«163484_j40355512714072_1_alg».proof.Proof.KI.ValDefs
import proofs.«163484_j40355512714072_1_alg».proof.Proof.KI.Blocks
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- Splitting the merged row axis, read at an index. -/
theorem unmerge_apply (Y : S16384x4096.Idx → EReal) (b0 : Fin 4) (s : Fin 4096) (o : Fin 4096) :
    shapeCast S4x4096x4096 Y shapeCasts_S16384x4096_S4x4096x4096 (ix3 b0 s o)
      = Y (ix2 (⟨4096 * b0.val + s.val, by have := b0.isLt; have := s.isLt; omega⟩ : Fin 16384) o) := by
  refine shapeCast_apply (s := S16384x4096) (t := S4x4096x4096) _ _ _ _ ?_
  show (S16384x4096.rowMajor (ix2 (⟨4096 * b0.val + s.val, by have := b0.isLt; have := s.isLt; omega⟩ : Fin 16384) o)).val
    = (S4x4096x4096.rowMajor (ix3 b0 s o)).val
  rw [Shape.rowMajor_val_three, Shape.rowMajor_val_two]
  show (4096 * b0.val + s.val) * 4096 + o.val = (b0.val * 4096 + s.val) * 4096 + o.val
  omega

/-- The merged activations at a row 4096 b + s: x[b, s, ·]. -/
theorem Xa_at (c : Dev nD) (b0 : Fin 4) (s : Fin 4096) (κ : Fin 4096) (r : Fin 16384) (hr : r.val = 4096 * b0.val + s.val) :
    Xa m c (ix2 r κ) = (m ((c : Thread nD τ).loc main_arg0) : S4x4096x4096.Idx → EReal) (ix3 b0 s κ) := by
  have h0 : (⟨r.val / 4096, by have := r.isLt; omega⟩ : Fin 4) = b0 :=
    Fin.ext (by show r.val / 4096 = b0.val; have := s.isLt; omega)
  have h1 : (⟨r.val % 4096, Nat.mod_lt _ (by norm_num)⟩ : Fin 4096) = s :=
    Fin.ext (by show r.val % 4096 = s.val; have := s.isLt; omega)
  rw [Xa_apply, h0, h1]

/-- The result over merged rows at (r, o), its eight-block sums written as whole sums. -/
theorem G2_at (c : Dev nD) (r : Fin 16384) (o : Fin 4096) :
    G2 m c (ix2 r o)
      = ((∑ κ : Fin 4096, Xa m c (ix2 r κ) * Wa m c (ix2 o κ)) + Ra m c (ix2 (0 : Fin 1) o))
        + (∑ ρ : Fin 16, (∑ κ : Fin 4096, Xa m c (ix2 r κ) * Aa m c (ix2 ρ κ)) * Ba m c (ix2 o ρ)) * LoraSpec.scale := by
  show (LoraSpec.blockSum (extN (prodW m c r o)) 8 + Ra m c (ix2 (0 : Fin 1) o))
      + (∑ ρ : Fin 16, LoraSpec.blockSum (extN (prodA m c r ρ)) 8 * Ba m c (ix2 o ρ)) * LoraSpec.scale = _
  simp only [blockSum_extN_eight]
  rfl

/-- The specification at (b, s, o), spelled out. -/
theorem G_at (x : LoraSpec.SX.Idx → EReal) (w : LoraSpec.SW.Idx → EReal) (bias : LoraSpec.SBias.Idx → EReal)
    (a : LoraSpec.SA.Idx → EReal) (b : LoraSpec.SB.Idx → EReal) (b0 : Fin 4) (s : Fin 4096) (o : Fin 4096) :
    LoraSpec.G x w bias a b (ix3 b0 s o)
      = ((∑ k : Fin 4096, x (ix3 b0 s k) * w (ix2 o k)) + bias (ix1 o))
        + (∑ ρ : Fin 16, (∑ k : Fin 4096, x (ix3 b0 s k) * a (ix2 ρ k)) * b (ix2 o ρ)) * LoraSpec.scale := rfl

/-- The result over merged rows at row 4096 b + s is the specification at (b, s). -/
theorem G2_eq (c : Dev nD) (b0 : Fin 4) (s : Fin 4096) (o : Fin 4096) :
    G2 m c (ix2 (⟨4096 * b0.val + s.val, by have := b0.isLt; have := s.isLt; omega⟩ : Fin 16384) o)
      = LoraSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix3 b0 s o) := by
  have hX : ∀ κ : Fin 4096,
      Xa m c (ix2 (⟨4096 * b0.val + s.val, by have := b0.isLt; have := s.isLt; omega⟩ : Fin 16384) κ)
        = (m ((c : Thread nD τ).loc main_arg0) : S4x4096x4096.Idx → EReal) (ix3 b0 s κ) :=
    fun κ => Xa_at m c b0 s κ _ rfl
  rw [G2_at, G_at]
  simp only [hX]
  rw [Wa_eq, Aa_eq, Ba_eq, Ra_apply]

end Cert.KernelIdeal.Val

end
-- ==== Proof.KI.Result.lean ====
/-
  The end of the kernel's side.  After the region the program splits the merged row axis again (16384 × 4096 back to
  4 × 4096 × 4096, row-major: entry (b, s, o) is entry (4096 b + s, o) of the kernel's result), so the program's result at
  (b, s, o) is the result over merged rows at (4096 b + s, o).  There the eight blocks of each inner product make the
  whole sum over the contraction axis, the merged activations at row 4096 b + s are x[b, s, ·] and the bias row is the
  bias: the specification, index by index.  Hence the kernel's run ends with its result array at the specification of
  its argument arrays, and the arguments unchanged.
-/
import proofs.«163484_j40355512714072_1_alg».proof.Proof.KI.Final
import proofs.«163484_j40355512714072_1_alg».proof.Proof.KI.SpecAt
import proofs.«163484_j40355512714072_1_alg».proof.Defs
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

variable (ρ : Dev nD → PrngReg)

/-- What the host line after the region leaves in the program's result buffer: the kernel's result array with its row
    axis split. -/
theorem tail_eq (c : Dev nD) :
    Pipeline.afterTail₀ cfgs (dats m) 0 (V0 m) [hostOps1] c main_v3
      = shapeCast S4x4096x4096 (resArr m c) shapeCasts_S16384x4096_S4x4096x4096 := by
  unfold Pipeline.afterTail₀
  show StableHlo.after hostOps1 _ (Proc.devRef .tc main_v3) = _
  after_results
  exact congrArg (fun Y => shapeCast S4x4096x4096 Y shapeCasts_S16384x4096_S4x4096x4096)
    ((Pipeline.withArrays_arr spec0 launch0.win.arr_inj c _ _ 5).trans (final5 m c))

/-- The program's result is the specification of its arguments. -/
theorem result_eq (c : Dev nD) :
    (shapeCast S4x4096x4096 (resArr m c) shapeCasts_S16384x4096_S4x4096x4096 : S4x4096x4096.Idx → EReal) = LoraSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b0, s, o, rfl⟩ : ∃ (b0 : Fin 4) (s : Fin 4096) (o : Fin 4096), i = ix3 b0 s o := ⟨i 0, i 1, i 2, eq_ix3 i⟩
  rw [unmerge_apply]
  exact G2_eq m c b0 s o

/-- Every weakly fair execution of the idealized kernel terminates with its result at the specification of the
    arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v3) = LoraSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v3 (Pipeline.mem_restRefs_of main_v3 (by decide) (by decide))).trans (tail_eq m c)).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main (F := Ideal) m ρ)

end Cert.KernelIdeal.Val

end
-- ==== Proof.RefIsSpec.lean ====
import proofs.«163484_j40355512714072_1_alg».proof.Defs
import proofs.«163484_j40355512714072_1_alg».proof.Proof.Gen.ReferenceIdeal.Run
import proofs.«163484_j40355512714072_1_alg».proof.Proof.Gen.ReferenceIdeal.Read
import proofs.«163484_j40355512714072_1_alg».proof.Proof.Spec

/-
  The reference program computes the specification.  Read one operation at a time, its result at an index
  (b, s, o) is
      (Σ_k x[b,s,k] · w[o,k] + bias[o]) + (Σ_ρ (Σ_k x[b,s,k] · a[ρ,k]) · b[o,ρ]) · 2,
  which is the specification's function word for word once the index functions the operations read through are
  identified with indices built from coordinates.  No arithmetic law is used.
-/

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The index functions of the operations, as indices from coordinates -/

/-- The dense product reads the activations at (b, s, k) … -/
theorem lidx_v0 (i : LoraSpec.SX.Idx) (k : Fin 4096) : Read.lidx_main_v0 i k = ix3 (i 0) (i 1) k :=
  funext fun a => Fin.ext (by match a with | ⟨0, _⟩ => rfl | ⟨1, _⟩ => rfl | ⟨2, _⟩ => rfl)
/-- … and the weights at (o, k). -/
theorem ridx_v0 (i : LoraSpec.SX.Idx) (k : Fin 4096) : Read.ridx_main_v0 i k = ix2 (i 2) k :=
  funext fun a => Fin.ext (by match a with | ⟨0, _⟩ => rfl | ⟨1, _⟩ => rfl)
/-- The bias, broadcast twice, is read at (o). -/
theorem idx_v1_v2 (i : LoraSpec.SX.Idx) : Read.idx_main_v1 (Read.idx_main_v2 i) = ix1 (i 2) :=
  funext fun a => Fin.ext (by match a with | ⟨0, _⟩ => rfl)
/-- The down projection, read at (b, s, ρ) by the up projection, reads the activations at (b, s, k) … -/
theorem lidx_v4_v5 (i : LoraSpec.SX.Idx) (r : Fin 16) (k : Fin 4096) :
    Read.lidx_main_v4 (Read.lidx_main_v5 i r) k = ix3 (i 0) (i 1) k :=
  funext fun a => Fin.ext (by match a with | ⟨0, _⟩ => rfl | ⟨1, _⟩ => rfl | ⟨2, _⟩ => rfl)
/-- … and the down matrix at (ρ, k). -/
theorem ridx_v4_v5 (i : LoraSpec.SX.Idx) (r : Fin 16) (k : Fin 4096) :
    Read.ridx_main_v4 (Read.lidx_main_v5 i r) k = ix2 r k :=
  funext fun a => Fin.ext (by match a with | ⟨0, _⟩ => rfl | ⟨1, _⟩ => rfl)
/-- The up projection reads the up matrix at (o, ρ). -/
theorem ridx_v5 (i : LoraSpec.SX.Idx) (r : Fin 16) : Read.ridx_main_v5 i r = ix2 (i 2) r :=
  funext fun a => Fin.ext (by match a with | ⟨0, _⟩ => rfl | ⟨1, _⟩ => rfl)

/-! ## The reference's result is the specification -/

theorem result_eq (x0 : LoraSpec.SX.Idx → EReal) (x1 : LoraSpec.SW.Idx → EReal) (x2 : LoraSpec.SBias.Idx → EReal)
    (x3 : LoraSpec.SA.Idx → EReal) (x4 : LoraSpec.SB.Idx → EReal) :
    Cert.ReferenceIdeal.Read.val_main_v8 (F := Ideal) x0 x1 x2 x3 x4 = LoraSpec.G x0 x1 x2 x3 x4 := by
  funext i
  rw [Read.val_main_v8_apply, Read.val_main_v3_apply, Read.val_main_v7_apply, Read.val_main_v0_apply,
    Read.val_main_v2_apply, Read.val_main_v1_apply, Read.val_main_v5_apply, Read.val_main_v6_apply,
    Read.val_main_cst_apply]
  simp only [Read.val_main_v4_apply, lidx_v0, ridx_v0, idx_v1_v2, lidx_v4_v5, ridx_v4_v5, ridx_v5,
    Ideal.addf_def, Ideal.mulf_def, Ideal.ofBits_def]
  rfl

/-! ## The reference's run, with the specification as its result -/

/-- On every device, from any memory with zero counters: every weakly fair execution of the reference terminates
    with its result buffer at the specification of the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v8)
          = LoraSpec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run (Cert.ReferenceIdeal.defs (F := Ideal)) _ _).mono
    (fun _ h c => ⟨(h c).1.trans ((Read.val_main_v8_eq _ _ _ _ _).trans (result_eq _ _ _ _ _)), (h c).2⟩)
    (Cert.ReferenceIdeal.Value.run (F := Ideal) m ρ)

end Cert.ReferenceIdeal.RefValue

end
-- ==== Proof.lean ====
/-
  A dense layer with a rank-16 correction, out = (x·wᵀ + bias) + ((x·aᵀ)·bᵀ)·2 over x : [4, 4096, 4096], as ONE fused kernel on a
  16 × 8 × 8 grid (row blocks of 1024, column blocks of 512, the contraction axis in 8 blocks of 512) against the plain
  reference of three matrix products.

  The kernel keeps two scratch buffers between grid points.  The base accumulator is zeroed where k = 0 and takes the
  product of the current blocks at every point, so after point (i, j, k) it holds the first k + 1 blocks of the inner
  products of rows 1024 i … with rows 512 j … of the weight.  The projection x·aᵀ does not depend on the column block j, so
  the kernel computes it only while j = 0 (zeroing it at j = 0, k = 0) and reuses the finished 1024 × 16 projection for
  j = 1 … 7.  At k = 7 it stores accumulator + bias row + (projection · second factor) · 2 into the output block, which is
  written back there and only there.

  Frames (both instances of the kernel): the body is run once per control case (six cases: j = 0 or not; k = 0, a
  middle block, or k = 7), the contents of the output buffer and of the two scratch buffers after each point are defined
  by recursion on the point, and an invariant between points names what the scratch buffers hold.  The reference's frame is
  its straight-line run.

  Value (ideal instance: floats are extended reals, a change of format is the identity, a matrix product into a zero
  accumulator is a plain sum): by induction on the point the accumulator and the projection are block sums of the inner
  products; eight blocks of 512 are the whole sum over 4096 (only associativity and commutativity of + on the extended
  reals: no distributivity, hence no use of finiteness); the output blocks tile the 16384 × 4096 result; the program's
  last line splits the merged row axis again.  The reference's three products read index by index give the same
  expression, with the same scale word 2.0 on both sides.
-/
import proofs.«163484_j40355512714072_1_alg».proof.Defs
import proofs.«163484_j40355512714072_1_alg».proof.Proof.Gen.Kernel
import proofs.«163484_j40355512714072_1_alg».proof.Proof.Gen.KernelIdeal
import proofs.«163484_j40355512714072_1_alg».proof.Proof.Gen.ReferenceIdeal
import proofs.«163484_j40355512714072_1_alg».proof.Proof.Gen.Pre_finite_inputs
import proofs.«163484_j40355512714072_1_alg».proof.Proof.K.Oblig
import proofs.«163484_j40355512714072_1_alg».proof.Proof.KI.Oblig
import proofs.«163484_j40355512714072_1_alg».proof.Proof.KI.Result
import proofs.«163484_j40355512714072_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel :=
  fun m ρ _ => Cert.Kernel.Body.frame (F := Bits) m ρ

/-- So does its idealization. -/
theorem frame_ki : Cert.frame_KernelIdeal :=
  fun m ρ _ => Cert.KernelIdeal.Body.frame (F := Ideal) m ρ

/-- The reference is a straight line of host operations: its run, with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Both idealized programs end with their result at the specification of the arguments, and the arguments agree. -/
theorem algebraic : Cert.algebraic_KernelIdeal_ReferenceIdeal := by
  intro m ρ m' ρ' _ hagree
  refine ⟨fun c => LoraSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ⟨?_, (h c).2⟩) (Cert.ReferenceIdeal.RefValue.run m' ρ')
  rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
